-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x256 : Shape := ⟨3, ![4, 512, 256]⟩
abbrev S256 : Shape := ⟨1, ![256]⟩
abbrev S16x256 : Shape := ⟨2, ![16, 256]⟩
abbrev S32x1 : Shape := ⟨2, ![32, 1]⟩
abbrev S32 : Shape := ⟨1, ![32]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S256 : S_.BroadcastsInDim S256 (![] : Fin 0 → Fin S256.rank)
  reducesTo_S256_S_d0 : S256.ReducesTo [0] S_
  bcast_S_S16x256 : S_.BroadcastsInDim S16x256 (![] : Fin 0 → Fin S16x256.rank)
  reducesTo_S16x256_S_d0_1 : S16x256.ReducesTo [0, 1] S_
  bcast_S_S32x1 : S_.BroadcastsInDim S32x1 (![] : Fin 0 → Fin S32x1.rank)
  reducesTo_S32x1_S_d0_1 : S32x1.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg7 : FVec F S16x256 .f32) (main_arg8 : FVec F S32x1 .f32) (main_arg9 : FVec F S32 .f32) (main_v33 : IVec S_ 1) : IVec S_ 1 :=
  let main_v34 : FVec F S16x256 .f32 := Host.absf main_arg7
  let main_cst_12 : FVec F S_ .f32 := constant S_ .f32 0x7F800000#32
  let main_v35 : FVec F S16x256 .f32 := broadcastInDim S16x256 ![] bcast_S_S16x256 main_cst_12
  let main_v36 : IVec S16x256 1 := cmpf .olt main_v34 main_v35
  let main_c_13 : IVec S_ 1 := constantI S_ 1 1#1
  let main_v37 : IVec S_ 1 := (fun x v => Host.reduce IntOp.andi x v reducesTo_S16x256_S_d0_1 h_S_) main_v36 main_c_13
  let main_v38 : IVec S_ 1 := andi main_v33 main_v37
  let main_v39 : FVec F S32x1 .f32 := Host.absf main_arg8
  let main_cst_14 : FVec F S_ .f32 := constant S_ .f32 0x7F800000#32
  let main_v40 : FVec F S32x1 .f32 := broadcastInDim S32x1 ![] bcast_S_S32x1 main_cst_14
  let main_v41 : IVec S32x1 1 := cmpf .olt main_v39 main_v40
  let main_c_15 : IVec S_ 1 := constantI S_ 1 1#1
  let main_v42 : IVec S_ 1 := (fun x v => Host.reduce IntOp.andi x v reducesTo_S32x1_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg4 : FVec F S256 .f32) (main_arg5 : FVec F S256 .f32) (main_arg6 : FVec F S16x256 .f32) (main_arg7 : FVec F S16x256 .f32) (main_arg8 : FVec F S32x1 .f32) (main_arg9 : FVec F S32 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S16x256 .f32 := Host.absf main_arg6
  let main_cst_10 : FVec F S_ .f32 := constant S_ .f32 0x7F800000#32
  let main_v30 : FVec F S16x256 .f32 := broadcastInDim S16x256 ![] bcast_S_S16x256 main_cst_10
  let main_v31 : IVec S16x256 1 := cmpf .olt main_v29 main_v30
  let main_c_11 : IVec S_ 1 := constantI S_ 1 1#1
  let main_v32 : IVec S_ 1 := (fun x v => Host.reduce IntOp.andi x v reducesTo_S16x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S4x512x256 .f32) (main_arg1 : FVec F S4x512x256 .f32) (main_arg2 : FVec F S256 .f32) (main_arg3 : FVec F S256 .f32) (main_arg4 : FVec F S256 .f32) (main_arg5 : FVec F S256 .f32) (main_arg6 : FVec F S16x256 .f32) (main_arg7 : FVec F S16x256 .f32) (main_arg8 : FVec F S32x1 .f32) (main_arg9 : FVec F S32 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x512x256 .f32 := Host.absf main_arg1
  let main_cst_0 : FVec F S_ .f32 := constant S_ .f32 0x7F800000#32
  let main_v5 : FVec F S4x512x256 .f32 := broadcastInDim S4x512x256 ![] bcast_S_S4x512x256 main_cst_0
  let main_v6 : IVec S4x512x256 1 := cmpf .olt main_v4 main_v5
  let main_c_1 : IVec S_ 1 := constantI S_ 1 1#1
  let main_v7 : IVec S_ 1 := (fun x v => Host.reduce IntOp.andi x v reducesTo_S4x512x256_S_d0_1_2 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S4x512x256 : Shape := ⟨3, ![4, 512, 256]⟩
abbrev S256 : Shape := ⟨1, ![256]⟩
abbrev S16x256 : Shape := ⟨2, ![16, 256]⟩
abbrev S32x1 : Shape := ⟨2, ![32, 1]⟩
abbrev S32 : Shape := ⟨1, ![32]⟩
abbrev S4x512x16 : Shape := ⟨3, ![4, 512, 16]⟩
abbrev S1x512x256 : Shape := ⟨3, ![1, 512, 256]⟩
abbrev S1x512x16 : Shape := ⟨3, ![1, 512, 16]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256x16 : Shape := ⟨2, ![256, 16]⟩
abbrev S512x16 : Shape := ⟨2, ![512, 16]⟩
abbrev S4x512x512x32 : Shape := ⟨4, ![4, 512, 512, 32]⟩
abbrev S1x32x16 : Shape := ⟨3, ![1, 32, 16]⟩
abbrev S1x512x32x32 : Shape := ⟨4, ![1, 512, 32, 32]⟩
abbrev S32x16 : Shape := ⟨2, ![32, 16]⟩
abbrev S16x32 : Shape := ⟨2, ![16, 32]⟩
abbrev S512x32 : Shape := ⟨2, ![512, 32]⟩
abbrev S512x32x1 : Shape := ⟨3, ![512, 32, 1]⟩
abbrev S1x1x32 : Shape := ⟨3, ![1, 1, 32]⟩
abbrev S512x32x32 : Shape := ⟨3, ![512, 32, 32]⟩

abbrev nBuf : Space → Nat
  | .hbm => 14
  | .vmem => 22
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S16x256, .f32⟩
  | .hbm, ⟨7, _⟩ => ⟨S16x256, .f32⟩
  | .hbm, ⟨8, _⟩ => ⟨S32x1, .f32⟩
  | .hbm, ⟨9, _⟩ => ⟨S32, .f32⟩
  | .hbm, ⟨10, _⟩ => ⟨S4x512x16, .f32⟩
  | .hbm, ⟨11, _⟩ => ⟨S4x512x16, .f32⟩
  | .hbm, ⟨12, _⟩ => ⟨S32, .f32⟩
  | .hbm, ⟨13, _⟩ => ⟨S4x512x512x32, .f32⟩
  | .local _ .vmem, ⟨0, _⟩ => ⟨S1x512x256, .f32⟩
  | .local _ .vmem, ⟨1, _⟩ => ⟨S1x512x256, .f32⟩
  | .local _ .vmem, ⟨2, _⟩ => ⟨S256, .f32⟩
  | .local _ .vmem, ⟨3, _⟩ => ⟨S256, .f32⟩
  | .local _ .vmem, ⟨4, _⟩ => ⟨S16x256, .f32⟩
  | .local _ .vmem, ⟨5, _⟩ => ⟨S1x512x16, .f32⟩
  | .local _ .vmem, ⟨6, _⟩ => ⟨S1x512x16, .f32⟩
  | .local _ .vmem, ⟨7, _⟩ => ⟨S1x512x256, .f32⟩
  | .local _ .vmem, ⟨8, _⟩ => ⟨S1x512x256, .f32⟩
  | .local _ .vmem, ⟨9, _⟩ => ⟨S256, .f32⟩
  | .local _ .vmem, ⟨10, _⟩ => ⟨S256, .f32⟩
  | .local _ .vmem, ⟨11, _⟩ => ⟨S16x256, .f32⟩
  | .local _ .vmem, ⟨12, _⟩ => ⟨S1x512x16, .f32⟩
  | .local _ .vmem, ⟨13, _⟩ => ⟨S1x512x16, .f32⟩
  | .local _ .vmem, ⟨14, _⟩ => ⟨S1x512x16, .f32⟩
  | .local _ .vmem, ⟨15, _⟩ => ⟨S1x512x16, .f32⟩
  | .local _ .vmem, ⟨16, _⟩ => ⟨S1x32x16, .f32⟩
  | .local _ .vmem, ⟨17, _⟩ => ⟨S1x32x16, .f32⟩
  | .local _ .vmem, ⟨18, _⟩ => ⟨S32, .f32⟩
  | .local _ .vmem, ⟨19, _⟩ => ⟨S32, .f32⟩
  | .local _ .vmem, ⟨20, _⟩ => ⟨S1x512x32x32, .f32⟩
  | .local _ .vmem, ⟨21, _⟩ => ⟨S1x512x32x32, .f32⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x512x16 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x512x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x32x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1x512x32x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

class Facts₀ : Prop where
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S512x256_S512 : S512x256.Reduces [1] S512
  shapeCasts_S512_S512x1 : S512.ShapeCasts S512x1
  broadcasts_S512x1_S512x256 : S512x1.Broadcasts S512x256
  inb_S256_S256_0 : ∀ a, (![0] : Fin 1 → Nat) a + S256.size a ≤ S256.size a
  h_S256 : 0 < S256.numel
  shapeCasts_S256_S1x256 : S256.ShapeCasts S1x256
  broadcasts_S1x256_S512x256 : S1x256.Broadcasts S512x256
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  transposes_S16x256_p1_0_S256x16 : S16x256.Transposes [1, 0] S256x16
  inb_S1x512x16_S1x512x16_0_0_0 : ∀ a, (![0, 0, 0] : Fin 3 → Nat) a + S1x512x16.size a ≤ S1x512x16.size a
  h_S1x512x16 : 0 < S1x512x16.numel
  shapeCasts_S1x512x16_S512x16 : S1x512x16.ShapeCasts S512x16
  shapeCasts_S512x16_S1x512x16 : S512x16.ShapeCasts S1x512x16
  shapeCasts_S32x1_S32 : S32x1.ShapeCasts S32
  inb_S1x32x16_S1x32x16_0_0_0 : ∀ a, (![0, 0, 0] : Fin 3 → Nat) a + S1x32x16.size a ≤ S1x32x16.size a
  h_S1x32x16 : 0 < S1x32x16.numel
  shapeCasts_S1x32x16_S32x16 : S1x32x16.ShapeCasts S32x16
  transposes_S32x16_p1_0_S16x32 : S32x16.Transposes [1, 0] S16x32
  inb_S32_S32_0 : ∀ a, (![0] : Fin 1 → Nat) a + S32.size a ≤ S32.size a
  h_S32 : 0 < S32.numel
  shapeCasts_S32_S32 : S32.ShapeCasts S32
  shapeCasts_S512x32_S512x32x1 : S512x32.ShapeCasts S512x32x1
  shapeCasts_S32_S1x1x32 : S32.ShapeCasts S1x1x32
  broadcasts_S512x32x1_S512x32x32 : S512x32x1.Broadcasts S512x32x32
  broadcasts_S1x1x32_S512x32x32 : S1x1x32.Broadcasts S512x32x32
  inb_S1x512x32x32_S1x512x32x32_0_0_0_0 : ∀ a, (![0, 0, 0, 0] : Fin 4 → Nat) a + S1x512x32x32.size a ≤ S1x512x32x32.size a
  h_S1x512x32x32 : 0 < S1x512x32x32.numel
  shapeCasts_S1x512x32x32_S512x32x32 : S1x512x32x32.ShapeCasts S512x32x32
  shapeCasts_S512x32x32_S1x512x32x32 : S512x32x32.ShapeCasts S1x512x32x32
  dot_S512x256_S256x16_S512x16_1_0_0_1_n_n_wf : DotDims.WF S512x256 S256x16 S512x16 [1] [0] [0] [1] [] []
  dot_S512x16_S16x32_S512x32_1_0_0_1_n_n_wf : DotDims.WF S512x16 S16x32 S512x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S4x512x256.size a
  hwx0_0 : ∀ i : grid0.Coords, EltTy.bits .f32 = 32 ∨ (Rect.block (s := S4x512x256) S1x512x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256.size a ≤ S256.size a
  hwx0_1 : ∀ i : grid0.Coords, EltTy.bits .f32 = 32 ∨ (Rect.block (s := S256) S256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x256.size a ≤ S16x256.size a
  hwx0_3 : ∀ i : grid0.Coords, EltTy.bits .f32 = 32 ∨ (Rect.block (s := S16x256) S16x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x16.size a ≤ S4x512x16.size a
  hwx0_4 : ∀ i : grid0.Coords, EltTy.bits .f32 = 32 ∨ (Rect.block (s := S4x512x16) S1x512x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S4x512x256.size a
  hwx1_0 : ∀ i : grid1.Coords, EltTy.bits .f32 = 32 ∨ (Rect.block (s := S4x512x256) S1x512x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256.size a ≤ S256.size a
  hwx1_1 : ∀ i : grid1.Coords, EltTy.bits .f32 = 32 ∨ (Rect.block (s := S256) S256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x256.size a ≤ S16x256.size a
  hwx1_3 : ∀ i : grid1.Coords, EltTy.bits .f32 = 32 ∨ (Rect.block (s := S16x256) S16x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x16.size a ≤ S4x512x16.size a
  hwx1_4 : ∀ i : grid1.Coords, EltTy.bits .f32 = 32 ∨ (Rect.block (s := S4x512x16) S1x512x16.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x16.size a ≤ S4x512x16.size a
  hwx2_0 : ∀ i : grid2.Coords, EltTy.bits .f32 = 32 ∨ (Rect.block (s := S4x512x16) S1x512x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x32x16.size a ≤ S4x512x16.size a
  hwx2_1 : ∀ i : grid2.Coords, EltTy.bits .f32 = 32 ∨ (Rect.block (s := S4x512x16) S1x32x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32.size a ≤ S32.size a
  hwx2_2 : ∀ i : grid2.Coords, EltTy.bits .f32 = 32 ∨ (Rect.block (s := S32) S32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32.size a ≤ S32.size a
  hwx2_3 : ∀ i : grid2.Coords, EltTy.bits .f32 = 32 ∨ (Rect.block (s := S32) S32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x512x32x32.size a ≤ S4x512x512x32.size a
  hwx2_4 : ∀ i : grid2.Coords, EltTy.bits .f32 = 32 ∨ (Rect.block (s := S4x512x512x32) S1x512x32x32.size (cc2_transform_4 i) (hinb2_4 i)).WholeWords (EltTy.packing .f32)

variable [Facts₀]

def dot_S512x256_S256x16_S512x16_1_0_0_1_n_n : DotDims S512x256 S256x16 S512x16 where
  lhsContracting := [1]
  rhsContracting := [0]
  lhsNonContracting := [0]
  rhsNonContracting := [1]
  lhsBatch := []
  rhsBatch := []
  wf := dot_S512x256_S256x16_S512x16_1_0_0_1_n_n_wf
def dot_S512x16_S16x32_S512x32_1_0_0_1_n_n : DotDims S512x16 S16x32 S512x32 where
  lhsContracting := [1]
  rhsContracting := [0]
  lhsNonContracting := [0]
  rhsNonContracting := [1]
  lhsBatch := []
  rhsBatch := []
  wf := dot_S512x16_S16x32_S512x32_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S16x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x512x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S16x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v1) S1x512x16.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0) S1x512x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x32x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x512x32x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S4x512x256 : Shape := ⟨3, ![4, 512, 256]⟩
abbrev S256 : Shape := ⟨1, ![256]⟩
abbrev S16x256 : Shape := ⟨2, ![16, 256]⟩
abbrev S32x1 : Shape := ⟨2, ![32, 1]⟩
abbrev S32 : Shape := ⟨1, ![32]⟩
abbrev S_ : Shape := ⟨0, ![]⟩
abbrev S4x512 : Shape := ⟨2, ![4, 512]⟩
abbrev S4x512x1 : Shape := ⟨3, ![4, 512, 1]⟩
abbrev S1x1x256 : Shape := ⟨3, ![1, 1, 256]⟩
abbrev S4x512x16 : Shape := ⟨3, ![4, 512, 16]⟩
abbrev S4x512x512 : Shape := ⟨3, ![4, 512, 512]⟩
abbrev S4x512x512x1 : Shape := ⟨4, ![4, 512, 512, 1]⟩
abbrev S1x1x1x32 : Shape := ⟨4, ![1, 1, 1, 32]⟩
abbrev S4x512x512x32 : Shape := ⟨4, ![4, 512, 512, 32]⟩

abbrev nBuf : Space → Nat
  | .hbm => 83
  | .vmem => 0
  | .smem => 0
  | _ => 0

abbrev bufTy : (tb : Table) → Fin (tcTables nBuf tb) → BufTy
  | .hbm, ⟨0, _⟩ => ⟨S4x512x256, .f32⟩
  | .hbm, ⟨1, _⟩ => ⟨S4x512x256, .f32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S16x256, .f32⟩
  | .hbm, ⟨7, _⟩ => ⟨S16x256, .f32⟩
  | .hbm, ⟨8, _⟩ => ⟨S32x1, .f32⟩
  | .hbm, ⟨9, _⟩ => ⟨S32, .f32⟩
  | .hbm, ⟨10, _⟩ => ⟨S_, .f32⟩
  | .hbm, ⟨11, _⟩ => ⟨S4x512, .f32⟩
  | .hbm, ⟨12, _⟩ => ⟨S4x512x1, .f32⟩
  | .hbm, ⟨13, _⟩ => ⟨S_, .f32⟩
  | .hbm, ⟨14, _⟩ => ⟨S4x512x1, .f32⟩
  | .hbm, ⟨15, _⟩ => ⟨S4x512x1, .f32⟩
  | .hbm, ⟨16, _⟩ => ⟨S4x512x256, .f32⟩
  | .hbm, ⟨17, _⟩ => ⟨S4x512x256, .f32⟩
  | .hbm, ⟨18, _⟩ => ⟨S4x512x256, .f32⟩
  | .hbm, ⟨19, _⟩ => ⟨S_, .f32⟩
  | .hbm, ⟨20, _⟩ => ⟨S4x512, .f32⟩
  | .hbm, ⟨21, _⟩ => ⟨S4x512x1, .f32⟩
  | .hbm, ⟨22, _⟩ => ⟨S_, .f32⟩
  | .hbm, ⟨23, _⟩ => ⟨S4x512x1, .f32⟩
  | .hbm, ⟨24, _⟩ => ⟨S4x512x1, .f32⟩
  | .hbm, ⟨25, _⟩ => ⟨S4x512x256, .f32⟩
  | .hbm, ⟨26, _⟩ => ⟨S4x512x256, .f32⟩
  | .hbm, ⟨27, _⟩ => ⟨S_, .f32⟩
  | .hbm, ⟨28, _⟩ => ⟨S4x512x1, .f32⟩
  | .hbm, ⟨29, _⟩ => ⟨S4x512x1, .f32⟩
  | .hbm, ⟨30, _⟩ => ⟨S4x512x1, .f32⟩
  | .hbm, ⟨31, _⟩ => ⟨S4x512x256, .f32⟩
  | .hbm, ⟨32, _⟩ => ⟨S4x512x256, .f32⟩
  | .hbm, ⟨33, _⟩ => ⟨S1x1x256, .f32⟩
  | .hbm, ⟨34, _⟩ => ⟨S4x512x256, .f32⟩
  | .hbm, ⟨35, _⟩ => ⟨S4x512x256, .f32⟩
  | .hbm, ⟨36, _⟩ => ⟨S1x1x256, .f32⟩
  | .hbm, ⟨37, _⟩ => ⟨S4x512x256, .f32⟩
  | .hbm, ⟨38, _⟩ => ⟨S4x512x256, .f32⟩
  | .hbm, ⟨39, _⟩ => ⟨S4x512x16, .f32⟩
  | .hbm, ⟨40, _⟩ => ⟨S_, .f32⟩
  | .hbm, ⟨41, _⟩ => ⟨S4x512, .f32⟩
  | .hbm, ⟨42, _⟩ => ⟨S4x512x1, .f32⟩
  | .hbm, ⟨43, _⟩ => ⟨S_, .f32⟩
  | .hbm, ⟨44, _⟩ => ⟨S4x512x1, .f32⟩
  | .hbm, ⟨45, _⟩ => ⟨S4x512x1, .f32⟩
  | .hbm, ⟨46, _⟩ => ⟨S4x512x256, .f32⟩
  | .hbm, ⟨47, _⟩ => ⟨S4x512x256, .f32⟩
  | .hbm, ⟨48, _⟩ => ⟨S4x512x256, .f32⟩
  | .hbm, ⟨49, _⟩ => ⟨S_, .f32⟩
  | .hbm, ⟨50, _⟩ => ⟨S4x512, .f32⟩
  | .hbm, ⟨51, _⟩ => ⟨S4x512x1, .f32⟩
  | .hbm, ⟨52, _⟩ => ⟨S_, .f32⟩
  | .hbm, ⟨53, _⟩ => ⟨S4x512x1, .f32⟩
  | .hbm, ⟨54, _⟩ => ⟨S4x512x1, .f32⟩
  | .hbm, ⟨55, _⟩ => ⟨S4x512x256, .f32⟩
  | .hbm, ⟨56, _⟩ => ⟨S4x512x256, .f32⟩
  | .hbm, ⟨57, _⟩ => ⟨S_, .f32⟩
  | .hbm, ⟨58, _⟩ => ⟨S4x512x1, .f32⟩
  | .hbm, ⟨59, _⟩ => ⟨S4x512x1, .f32⟩
  | .hbm, ⟨60, _⟩ => ⟨S4x512x1, .f32⟩
  | .hbm, ⟨61, _⟩ => ⟨S4x512x256, .f32⟩
  | .hbm, ⟨62, _⟩ => ⟨S4x512x256, .f32⟩
  | .hbm, ⟨63, _⟩ => ⟨S1x1x256, .f32⟩
  | .hbm, ⟨64, _⟩ => ⟨S4x512x256, .f32⟩
  | .hbm, ⟨65, _⟩ => ⟨S4x512x256, .f32⟩
  | .hbm, ⟨66, _⟩ => ⟨S1x1x256, .f32⟩
  | .hbm, ⟨67, _⟩ => ⟨S4x512x256, .f32⟩
  | .hbm, ⟨68, _⟩ => ⟨S4x512x256, .f32⟩
  | .hbm, ⟨69, _⟩ => ⟨S4x512x16, .f32⟩
  | .hbm, ⟨70, _⟩ => ⟨S4x512x512, .f32⟩
  | .hbm, ⟨71, _⟩ => ⟨S_, .f32⟩
  | .hbm, ⟨72, _⟩ => ⟨S4x512x512, .f32⟩
  | .hbm, ⟨73, _⟩ => ⟨S4x512x512, .f32⟩
  | .hbm, ⟨74, _⟩ => ⟨S4x512x512x1, .f32⟩
  | .hbm, ⟨75, _⟩ => ⟨S32, .f32⟩
  | .hbm, ⟨76, _⟩ => ⟨S1x1x1x32, .f32⟩
  | .hbm, ⟨77, _⟩ => ⟨S4x512x512x32, .f32⟩
  | .hbm, ⟨78, _⟩ => ⟨S4x512x512x32, .f32⟩
  | .hbm, ⟨79, _⟩ => ⟨S4x512x512x32, .f32⟩
  | .hbm, ⟨80, _⟩ => ⟨S1x1x1x32, .f32⟩
  | .hbm, ⟨81, _⟩ => ⟨S4x512x512x32, .f32⟩
  | .hbm, ⟨82, _⟩ => ⟨S4x512x512x32, .f32⟩
  | _, _ => ⟨S4x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩

abbrev nD : Nat := 1
abbrev τ : Topo := Topo.v7x

variable {F : FTy → Type} [FloatOps F]

class Facts₀ : Prop where
  reducesTo_S4x512x256_S4x512_d2 : S4x512x256.ReducesTo [2] S4x512
  h_S_ : 0 < S_.numel
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512x1_S4x512x256_0_1_2 : S4x512x1.BroadcastsInDim S4x512x256 (![0, 1, 2] : Fin 3 → Fin S4x512x256.rank)
  bcast_S256_S1x1x256_2 : S256.BroadcastsInDim S1x1x256 (![2] : Fin 1 → Fin S1x1x256.rank)
  bcast_S1x1x256_S4x512x256_0_1_2 : S1x1x256.BroadcastsInDim S4x512x256 (![0, 1, 2] : Fin 3 → Fin S4x512x256.rank)
  bcast_S_S4x512x512 : S_.BroadcastsInDim S4x512x512 (![] : Fin 0 → Fin S4x512x512.rank)
  bcast_S4x512x512_S4x512x512x1_0_1_2 : S4x512x512.BroadcastsInDim S4x512x512x1 (![0, 1, 2] : Fin 3 → Fin S4x512x512x1.rank)
  shapeCasts_S32x1_S32 : S32x1.ShapeCasts S32
  bcast_S32_S1x1x1x32_3 : S32.BroadcastsInDim S1x1x1x32 (![3] : Fin 1 → Fin S1x1x1x32.rank)
  bcast_S4x512x512x1_S4x512x512x32_0_1_2_3 : S4x512x512x1.BroadcastsInDim S4x512x512x32 (![0, 1, 2, 3] : Fin 4 → Fin S4x512x512x32.rank)
  bcast_S1x1x1x32_S4x512x512x32_0_1_2_3 : S1x1x1x32.BroadcastsInDim S4x512x512x32 (![0, 1, 2, 3] : Fin 4 → Fin S4x512x512x32.rank)
  dot_S4x512x256_S16x256_S4x512x16_2_1_01_0_n_n_wf : DotDims.WF S4x512x256 S16x256 S4x512x16 [2] [1] [0, 1] [0] [] []
  dot_S4x512x16_S4x512x16_S4x512x512_2_2_1_1_0_0_wf : DotDims.WF S4x512x16 S4x512x16 S4x512x512 [2] [2] [1] [1] [0] [0]

variable [Facts₀]

def dot_S4x512x256_S16x256_S4x512x16_2_1_01_0_n_n : DotDims S4x512x256 S16x256 S4x512x16 where
  lhsContracting := [2]
  rhsContracting := [1]
  lhsNonContracting := [0, 1]
  rhsNonContracting := [0]
  lhsBatch := []
  rhsBatch := []
  wf := dot_S4x512x256_S16x256_S4x512x16_2_1_01_0_n_n_wf
def dot_S4x512x16_S4x512x16_S4x512x512_2_2_1_1_0_0 : DotDims S4x512x16 S4x512x16 S4x512x512 where
  lhsContracting := [2]
  rhsContracting := [2]
  lhsNonContracting := [1]
  rhsNonContracting := [1]
  lhsBatch := [0]
  rhsBatch := [0]
  wf := dot_S4x512x16_S4x512x16_S4x512x512_2_2_1_1_0_0_wf

class Facts : Prop extends Facts₀ where

variable [Facts]
-- ==== Proof.Spec.lean ====
/-
  What both programs compute, as one function of the ten argument arrays, over the extended reals.

  A row r of 256 entries is normalised: with mean(r) = (Σ_k r_k) / 256 and var(r) = (Σ_k (r_k - mean r)^2) / 256,
  entry k becomes (r_k - mean r) · rsqrt(var r + ε) · w_k + b_k. The normalised row is projected onto 16 channels:
  channel c is Σ_k normed_k · W_{c,k}. This is done to every row (b, l) of h_l and to every row (b, p) of h_p, giving
  hl[b,l,·] and hp[b,p,·]. The result at (b, l, p, o) is (Σ_c hl[b,l,c] · hp[b,p,c]) · (1/16) · W_f[o,0] + b_f[o].

  The sums are finite sums in a commutative monoid, so their order and grouping are immaterial; the float words
  (256, ε, 1/16) are kept as words and never evaluated.
-/
import Idealize.ShloMosaic.PureOps.Ideal
import Idealize.ShloMosaic.Lib.ValueIdx

noncomputable section

namespace Cert.Spec

open Idealize.ShloMosaic Idealize.ShloMosaic.ValueIdx

/-- The word of 256.0, the length of a row. -/
abbrev w256 : EReal := Ideal.ofBits .f32 0x43800000#32
/-- The word of the variance's epsilon (the float nearest 1e-5), the same word in both programs. -/
abbrev wEps : EReal := Ideal.ofBits .f32 0x3727C5AC#32
/-- The word of 0.0625 = 1/16. -/
abbrev wScale : EReal := Ideal.ofBits .f32 0x3D800000#32

/-- The mean of a row. -/
def mean (r : Fin 256 → EReal) : EReal := Ideal.div (∑ k : Fin 256, r k) w256

/-- The (biased) variance of a row: the mean of the squared deviations. -/
def var (r : Fin 256 → EReal) : EReal := Ideal.div (∑ k : Fin 256, (r k - mean r) * (r k - mean r)) w256

/-- Entry k of the normalised, scaled and shifted row. -/
def normed (r w b : Fin 256 → EReal) (k : Fin 256) : EReal :=
  (r k - mean r) * Ideal.rsqrt (var r + wEps) * w k + b k

/-- Channel c of the projection of the normalised row. -/
def proj (r w b : Fin 256 → EReal) (W : Fin 16 → Fin 256 → EReal) (c : Fin 16) : EReal :=
  ∑ k : Fin 256, normed r w b k * W c k

/-- The scaled pair sum of two projected rows, through the final affine map of one output channel. -/
def pair (hl hp : Fin 16 → EReal) (wf bf : EReal) : EReal :=
  (∑ c : Fin 16, hl c * hp c) * wScale * wf + bf

/-- LayerNorm then projection of every row of a [4, 512, 256] array: the [4, 512, 16] array of projected rows. -/
def lnProj (x : (⟨3, ![4, 512, 256]⟩ : Shape).Idx → EReal) (w b : (⟨1, ![256]⟩ : Shape).Idx → EReal)
    (W : (⟨2, ![16, 256]⟩ : Shape).Idx → EReal) : (⟨3, ![4, 512, 16]⟩ : Shape).Idx → EReal :=
  fun i => proj (fun k => x (ix3 (i 0) (i 1) k)) (fun k => w (ix1 k)) (fun k => b (ix1 k)) (fun c k => W (ix2 c k)) (i 2)

/-- The outer product over rows of two [4, 512, 16] arrays, scaled, through the final affine map: [4, 512, 512, 32]. -/
def outerLin (hl hp : (⟨3, ![4, 512, 16]⟩ : Shape).Idx → EReal) (wf bf : (⟨1, ![32]⟩ : Shape).Idx → EReal) :
    (⟨4, ![4, 512, 512, 32]⟩ : Shape).Idx → EReal :=
  fun i => pair (fun c => hl (ix3 (i 0) (i 1) c)) (fun c => hp (ix3 (i 0) (i 2) c)) (wf (ix1 (i 3))) (bf (ix1 (i 3)))

/-- The whole result from the ten arguments; W_f arrives as [32, 1] and is read at column 0. -/
def result (hL hP : (⟨3, ![4, 512, 256]⟩ : Shape).Idx → EReal) (wL bL wP bP : (⟨1, ![256]⟩ : Shape).Idx → EReal)
    (WL WP : (⟨2, ![16, 256]⟩ : Shape).Idx → EReal) (Wf : (⟨2, ![32, 1]⟩ : Shape).Idx → EReal)
    (bf : (⟨1, ![32]⟩ : Shape).Idx → EReal) : (⟨4, ![4, 512, 512, 32]⟩ : Shape).Idx → EReal :=
  outerLin (lnProj hL wL bL WL) (lnProj hP wP bP WP) (fun o => Wf (ix2 (o 0) 0)) bf

end Cert.Spec

end
-- ==== Proof.Consts.lean ====
/-
  The two float words by which the programs differ, as the extended reals they denote: the reference divides the
  pair sums by the word of 16.0, the kernel multiplies them by the word of 0.0625. Both words are exact: 16 = 2^4 and
  0.0625 = 2^-4. On the extended reals division by a nonzero real r is multiplication by 1/r at EVERY argument, the
  infinities included, so the two operations are one function and no finiteness of the pair sums is needed.
-/
import Idealize.ShloMosaic.PureOps.Ideal
import Idealize.ShloMosaic.PureOps.Ideal.Laws

noncomputable section

namespace Cert.Consts

open Idealize.ShloMosaic

/-- The word 0x41800000 (sign 0, exponent 131, mantissa 0) denotes the real 16. -/
theorem ofBits_sixteen : Ideal.ofBits .f32 0x41800000#32 = ((16 : ℝ) : EReal) := by
  simp [Ideal.ofBits, Ideal.ieee, -EReal.coe_mul]; norm_num

/-- The word 0x3D800000 (sign 0, exponent 123, mantissa 0) denotes the real 1/16. -/
theorem ofBits_sixteenth : Ideal.ofBits .f32 0x3D800000#32 = ((1 / 16 : ℝ) : EReal) := by
  simp [Ideal.ofBits, Ideal.ieee, -EReal.coe_mul]; norm_num

/-- Dividing by the word of 16 is multiplying by the word of 1/16, at every extended real. -/
theorem div_sixteen (x : EReal) :
    Ideal.div x (Ideal.ofBits .f32 0x41800000#32) = x * Ideal.ofBits .f32 0x3D800000#32 := by
  rw [ofBits_sixteen, ofBits_sixteenth]
  exact Ideal.div_coe (by norm_num) x

end Cert.Consts

end
-- ==== Proof.LibRowLayers.lean ====
/-
  Layers of a row-wise network read at an index, at the exact instance (floats read as extended reals).

  Every layer here sends a matrix of m rows to a matrix of m rows, and row r of the result reads row r of the
  matrix operands only. The readings are stated for an arbitrary number of rows, so they serve a block of rows and
  the whole array alike.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember
import Idealize.ShloMosaic.Lib.IdealHost

noncomputable section

open scoped BigOperators

namespace RowLayers

open Idealize.ShloMosaic Idealize.ShloMosaic.ValueIdx

variable {m k n : ℕ}

/-- Putting column c back into the reduced index r of a reduction along the columns gives (r, c). -/
theorem lift_cols (hred : (⟨2, ![m, k]⟩ : Shape).Reduces [1] ⟨1, ![m]⟩) (r : Fin m)
    (c : Fin ((⟨2, ![m, k]⟩ : Shape).size 1)) : hred.lift (ix1 r) c = ix2 r (⟨c.val, c.isLt⟩ : Fin k) := by
  funext a; apply Fin.ext
  fin_cases a <;> rfl

/-- The sum of a row's squares: a lane reduction of x * x along the columns, read at row r. -/
theorem rowSquares_apply (hred : (⟨2, ![m, k]⟩ : Shape).Reduces [1] ⟨1, ![m]⟩) (hfmt : FKind.Formats FTy.f32)
    (hacc : (0x00000000#32 : BitVec FTy.f32.bits) = FKind.add.neutral .f32 hfmt)
    (x : FVec Ideal ⟨2, ![m, k]⟩ .f32) (r : Fin m) :
    multiReduction .add [1] ⟨1, ![m]⟩ (mulf x x) 0x00000000#32 hred hfmt hacc (ix1 r)
      = ∑ c : Fin k, x (ix2 r c) * x (ix2 r c) := by
  rw [Ideal.multiReduction_add_single]
  refine Finset.sum_congr rfl fun c _ => ?_
  rw [lift_cols]; rfl

/-- A vector of m entries cast to a column reads, at (r, 0), entry r. -/
theorem column_apply {α : Type} (hsc : (⟨1, ![m]⟩ : Shape).ShapeCasts ⟨2, ![m, 1]⟩) (v : (⟨1, ![m]⟩ : Shape).Idx → α)
    (r : Fin m) (u : Fin 1) : shapeCast ⟨2, ![m, 1]⟩ v hsc (ix2 r u) = v (ix1 r) :=
  shapeCast_apply v hsc _ _ (by
    have hu : u.val = 0 := by omega
    rw [Shape.rowMajor_val_two, Shape.rowMajor_val_one]
    show r.val = r.val * 1 + u.val
    rw [hu]; omega)

/-- A column broadcast along the rows' entries reads, at (r, j), the column's entry r. -/
theorem broadcastColumn_apply {α : Type} (hbc : (⟨2, ![m, 1]⟩ : Shape).Broadcasts ⟨2, ![m, k]⟩)
    (v : (⟨2, ![m, 1]⟩ : Shape).Idx → α) (r : Fin m) (j : Fin k) :
    broadcastTo ⟨2, ![m, k]⟩ v hbc (ix2 r j) = v (ix2 r (0 : Fin 1)) := by
  refine broadcastTo_apply v hbc (ix2 r j) (ix2 r (0 : Fin 1)) fun ax => ?_
  match ax with
  | ⟨0, _⟩ =>
    show r.val = if m = 1 then 0 else r.val
    split
    · have := r.isLt; omega
    · rfl
  | ⟨1, _⟩ => rfl

/-- A row divided by the larger of its Euclidean length and a floor e: the tiled spelling, at (r, j). -/
theorem rowNormalize_apply (e : BitVec 32) (hred : (⟨2, ![m, k]⟩ : Shape).Reduces [1] ⟨1, ![m]⟩)
    (hfmt : FKind.Formats FTy.f32) (hacc : (0x00000000#32 : BitVec FTy.f32.bits) = FKind.add.neutral .f32 hfmt)
    (hsc : (⟨1, ![m]⟩ : Shape).ShapeCasts ⟨2, ![m, 1]⟩) (hbc : (⟨2, ![m, 1]⟩ : Shape).Broadcasts ⟨2, ![m, k]⟩)
    (x : FVec Ideal ⟨2, ![m, k]⟩ .f32) (r : Fin m) (j : Fin k) :
    divf x (broadcastTo ⟨2, ![m, k]⟩
        (maximumf (sqrt (shapeCast ⟨2, ![m, 1]⟩ (multiReduction .add [1] ⟨1, ![m]⟩ (mulf x x) 0x00000000#32 hred hfmt hacc) hsc))
          (broadcast ⟨2, ![m, 1]⟩ (Scalar.ofBits (F := Ideal) .f32 e))) hbc) (ix2 r j)
      = Ideal.div (x (ix2 r j))
          (max (Ideal.sqrt (∑ c : Fin k, x (ix2 r c) * x (ix2 r c))) (Ideal.ofBits .f32 e)) := by
  rw [divf_apply, broadcastColumn_apply, maximumf_apply]
  show Ideal.div _ (max (Ideal.sqrt (shapeCast _ _ hsc (ix2 r (0 : Fin 1)))) _) = _
  rw [column_apply, rowSquares_apply]
  rfl

/-- A vector of n entries cast to one row and broadcast down m rows reads, at (r, j), entry j. -/
theorem biasRow_apply {α : Type} (hsc : (⟨1, ![n]⟩ : Shape).ShapeCasts ⟨2, ![1, n]⟩)
    (hbc : (⟨2, ![1, n]⟩ : Shape).Broadcasts ⟨2, ![m, n]⟩) (b : (⟨1, ![n]⟩ : Shape).Idx → α) (r : Fin m) (j : Fin n) :
    broadcastTo ⟨2, ![m, n]⟩ (shapeCast ⟨2, ![1, n]⟩ b hsc) hbc (ix2 r j) = b (ix1 j) := by
  rw [broadcastTo_1b_ab_apply, shapeCast_a_1a_apply]

/-- One row broadcast down m rows reads, at (r, j), the row's entry j. -/
theorem oneRow_apply {α : Type} (hsc : (⟨2, ![1, n]⟩ : Shape).ShapeCasts ⟨2, ![1, n]⟩)
    (hbc : (⟨2, ![1, n]⟩ : Shape).Broadcasts ⟨2, ![m, n]⟩) (v : (⟨2, ![1, n]⟩ : Shape).Idx → α) (r : Fin m) (j : Fin n) :
    broadcastTo ⟨2, ![m, n]⟩ (shapeCast ⟨2, ![1, n]⟩ (shapeCast ⟨2, ![1, n]⟩ v hsc) hsc) hbc (ix2 r j) = v (ix2 (0 : Fin 1) j) := by
  rw [broadcastTo_1b_ab_apply, shapeCast_self, shapeCast_self]

/-! ## The matrix unit's product with the right operand contracted on its last axis -/

/-- An m×k matrix times the transpose of an n×k matrix, accumulated into the zero splat, at (a, b): the sum over the
    contracted coordinate of the products of the entries. -/
theorem matmulT_apply {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant ⟨2, ![m, n]⟩ .f32 0x00000000#32) (ix2 a b)
      = ∑ c : Fin k, A (ix2 a c) * B (ix2 b c) := by
  refine (Ideal.matmul_constant_zero_apply (DotDims.transposedRhs m k n) prec A B (ix2 a b)).trans ?_
  rw [← Equiv.sum_comp (contrEquiv1 (DotDims.transposedRhs m k n) k rfl rfl).symm]
  refine Finset.sum_congr rfl fun c _ => ?_
  have c2 := contrEquiv1_symm_val (DotDims.transposedRhs m k n) k rfl rfl c
  have l2 : (DotDims.transposedRhs m k n).lhsIdx (ix2 a b) ((contrEquiv1 _ k rfl rfl).symm c) = ix2 a c := by
    funext ax; apply Fin.ext
    match ax with
    | ⟨0, _⟩ => simp [DotDims.lhsIdx, DotDims.transposedRhs]; rfl
    | ⟨1, _⟩ => simp [DotDims.lhsIdx, DotDims.transposedRhs]; exact c2
  have r2 : (DotDims.transposedRhs m k n).rhsIdx (ix2 a b) ((contrEquiv1 _ k rfl rfl).symm c) = ix2 b c := by
    funext ax; apply Fin.ext
    match ax with
    | ⟨0, _⟩ => simp [DotDims.rhsIdx, DotDims.transposedRhs]; rfl
    | ⟨1, _⟩ => simp [DotDims.rhsIdx, DotDims.transposedRhs]; exact c2
  rw [l2, r2]

/-- The affine layer in the tiled spelling — operands narrowed (the identity here), multiplied on the matrix unit
    into a zero accumulator, plus the bias vector as a row broadcast down the rows — at (r, j). -/
theorem affineRows_apply {φ₁ : FTy} (h16 : FTy.bf16.bits < FTy.f32.bits)
    (hsc : (⟨1, ![n]⟩ : Shape).ShapeCasts ⟨2, ![1, n]⟩) (hbc : (⟨2, ![1, n]⟩ : Shape).Broadcasts ⟨2, ![m, n]⟩)
    (x : FVec Ideal ⟨2, ![m, k]⟩ φ₁) (w : FVec Ideal ⟨2, ![n, k]⟩ .f32) (b : FVec Ideal ⟨1, ![n]⟩ .f32)
    (r : Fin m) (j : Fin n) :
    addf (matmul (DotDims.transposedRhs m k n) none x (truncf .bf16 w h16) (constant ⟨2, ![m, n]⟩ .f32 0x00000000#32))
        (broadcastTo ⟨2, ![m, n]⟩ (shapeCast ⟨2, ![1, n]⟩ b hsc) hbc) (ix2 r j)
      = (∑ c : Fin k, x (ix2 r c) * w (ix2 j c)) + b (ix1 j) := by
  rw [addf_apply, matmulT_apply, biasRow_apply]
  rfl

/-! ## Two matrices laid side by side -/

/-- Left of the seam a side-by-side concatenation reads the first matrix. -/
theorem catCols_left {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin p)
    (hc : c.val = j.val) :
    concatenate ⟨2, ![m, t]⟩ 1 [⟨⟨2, ![m, p]⟩, a⟩, ⟨⟨2, ![m, q]⟩, b⟩] h (ix2 r j) = a (ix2 r c) :=
  concatenate_pair_apply_left 1 a b h (ix2 r j) rfl (ix2 r c) (fun ax => by
    match ax with
    | ⟨0, _⟩ => rfl
    | ⟨1, _⟩ => exact hc)

/-- Right of the seam it reads the second matrix, p columns back. -/
theorem catCols_right {α : Type} {p q t : ℕ}
    (h : Shape.Concatenates [(⟨2, ![m, p]⟩ : Shape), ⟨2, ![m, q]⟩] ⟨2, ![m, t]⟩ 1)
    (a : (⟨2, ![m, p]⟩ : Shape).Idx → α) (b : (⟨2, ![m, q]⟩ : Shape).Idx → α) (r : Fin m) (j : Fin t) (c : Fin q)
    (hc : c.val + p = j.val) :
    concatenate ⟨2, ![m, t]⟩ 1 [⟨⟨2, ![m, p]⟩, a⟩, ⟨⟨2, ![m, q]⟩, b⟩] h (ix2 r j) = b (ix2 r c) :=
  concatenate_pair_apply_right 1 a b h (ix2 r j) rfl rfl (ix2 r c) (fun ax hax => by
    match ax with
    | ⟨0, _⟩ => rfl
    | ⟨1, _⟩ => exact absurd rfl hax) hc

/-! ## The same layers in the whole-array spelling: the host's operations with broadcast_in_dim -/

/-- A scalar broadcast over any shape reads the scalar. -/
theorem scalarBroadcast_apply {t : Shape} (w : BitVec 32) (h : (⟨0, ![]⟩ : Shape).BroadcastsInDim t ![]) (i : t.Idx) :
    broadcastInDim t ![] h (constant (F := Ideal) ⟨0, ![]⟩ .f32 w) i = Ideal.ofBits .f32 w :=
  broadcastInDim_apply ![] h _ i ix0 (fun a => a.elim0)

/-- A vector of n entries broadcast along the columns of m rows reads, at (r, j), entry j. -/
theorem rowBroadcast_apply {α : Type} (h : (⟨1, ![n]⟩ : Shape).BroadcastsInDim ⟨2, ![m, n]⟩ ![1])
    (v : (⟨1, ![n]⟩ : Shape).Idx → α) (r : Fin m) (j : Fin n) :
    broadcastInDim ⟨2, ![m, n]⟩ ![1] h v (ix2 r j) = v (ix1 j) := by
  refine broadcastInDim_apply ![1] h v (ix2 r j) (ix1 j) fun a => ?_
  match a with
  | ⟨0, _⟩ =>
    show j.val = if n = 1 then 0 else j.val
    split
    · have := j.isLt; omega
    · rfl

/-- A vector of m entries made a column by broadcast_in_dim reads, at (r, 0), entry r. -/
theorem columnBroadcast_apply {α : Type} (h : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] h v (ix2 r u) = v (ix1 r) := by
  refine broadcastInDim_apply ![0] h v (ix2 r u) (ix1 r) fun a => ?_
  match a with
  | ⟨0, _⟩ =>
    show r.val = if m = 1 then 0 else r.val
    split
    · have := r.isLt; omega
    · rfl

/-- A column broadcast_in_dim'd along the rows' entries reads, at (r, j), the column's entry r. -/
theorem columnAcross_apply {α : Type} (h : (⟨2, ![m, 1]⟩ : Shape).BroadcastsInDim ⟨2, ![m, k]⟩ ![0, 1])
    (v : (⟨2, ![m, 1]⟩ : Shape).Idx → α) (r : Fin m) (j : Fin k) :
    broadcastInDim ⟨2, ![m, k]⟩ ![0, 1] h v (ix2 r j) = v (ix2 r (0 : Fin 1)) := by
  refine broadcastInDim_apply ![0, 1] h v (ix2 r j) (ix2 r (0 : Fin 1)) fun a => ?_
  match a with
  | ⟨0, _⟩ =>
    show r.val = if m = 1 then 0 else r.val
    split
    · have := r.isLt; omega
    · rfl
  | ⟨1, _⟩ => rfl

/-- One row broadcast_in_dim'd down m rows reads, at (r, j), the row's entry j. -/
theorem rowDown_apply {α : Type} (h : (⟨2, ![1, n]⟩ : Shape).BroadcastsInDim ⟨2, ![m, n]⟩ ![0, 1])
    (v : (⟨2, ![1, n]⟩ : Shape).Idx → α) (r : Fin m) (j : Fin n) :
    broadcastInDim ⟨2, ![m, n]⟩ ![0, 1] h v (ix2 r j) = v (ix2 (0 : Fin 1) j) := by
  refine broadcastInDim_apply ![0, 1] h v (ix2 r j) (ix2 (0 : Fin 1) j) fun a => ?_
  match a with
  | ⟨0, _⟩ => rfl
  | ⟨1, _⟩ =>
    show j.val = if n = 1 then 0 else j.val
    split
    · have := j.isLt; omega
    · rfl

/-- The host's quotient, entry by entry. -/
theorem hostDivf_apply {s : Shape} {φ : FTy} (a b : FVec Ideal s φ) (i : s.Idx) : Host.divf a b i = Ideal.div (a i) (b i) := rfl

/-- The host's square root, entry by entry. -/
theorem hostSqrt_apply {s : Shape} {φ : FTy} (a : FVec Ideal s φ) (i : s.Idx) : Host.sqrt a i = Ideal.sqrt (a i) := rfl

/-- The host's sum of a row's squares from the zero scalar, at row r. -/
theorem hostRowSquares_apply (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (X : FVec Ideal ⟨2, ![m, k]⟩ .f32) (r : Fin m) :
    Host.reduceAdd (mulf X X) (constant (F := Ideal) ⟨0, ![]⟩ .f32 0x00000000#32) hrt hu (ix1 r)
      = ∑ c : Fin k, X (ix2 r c) * X (ix2 r c) := by
  simp only [Host.reduceAdd, Ideal.hostReduceAdd_def]
  rw [Ideal.hostReduceAdd_single hrt hred]
  show Ideal.ofBits .f32 0x00000000#32 + _ = _
  rw [Ideal.ofBits_zero_f32, zero_add]
  refine Finset.sum_congr rfl fun c _ => ?_
  rw [lift_cols]; rfl

/-- The whole-array row normalisation at (r, j). -/
theorem hostRowNormalize_apply (e : BitVec 32) (hrt : (⟨2, ![m, k]⟩ : Shape).ReducesTo [1] ⟨1, ![m]⟩)
    (hred : (⟨2, ![m, k]⟩ : Shape).Reduces [1] ⟨1, ![m]⟩) (hu : 0 < (⟨0, ![]⟩ : Shape).numel)
    (h0 : (⟨1, ![m]⟩ : Shape).BroadcastsInDim ⟨2, ![m, 1]⟩ ![0])
    (hs : (⟨0, ![]⟩ : Shape).BroadcastsInDim ⟨2, ![m, 1]⟩ ![])
    (h01 : (⟨2, ![m, 1]⟩ : Shape).BroadcastsInDim ⟨2, ![m, k]⟩ ![0, 1])
    (X : FVec Ideal ⟨2, ![m, k]⟩ .f32) (r : Fin m) (j : Fin k) :
    Host.divf X (broadcastInDim ⟨2, ![m, k]⟩ ![0, 1] h01
        (maximumf (Host.sqrt (broadcastInDim ⟨2, ![m, 1]⟩ ![0] h0
            (Host.reduceAdd (mulf X X) (constant (F := Ideal) ⟨0, ![]⟩ .f32 0x00000000#32) hrt hu)))
          (broadcastInDim ⟨2, ![m, 1]⟩ ![] hs (constant (F := Ideal) ⟨0, ![]⟩ .f32 e)))) (ix2 r j)
      = Ideal.div (X (ix2 r j))
          (max (Ideal.sqrt (∑ c : Fin k, X (ix2 r c) * X (ix2 r c))) (Ideal.ofBits .f32 e)) := by
  rw [hostDivf_apply, columnAcross_apply, maximumf_apply, hostSqrt_apply, columnBroadcast_apply, scalarBroadcast_apply,
    hostRowSquares_apply hrt hred]

/-- The whole-array affine layer — the weight matrix transposed, the host's plain product, plus the bias vector made
    a row and broadcast down the rows — at (r, j). -/
theorem hostAffine_apply (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![m, n]⟩ ![0, 1])
    (X : FVec Ideal ⟨2, ![m, k]⟩ .f32) (w : FVec Ideal ⟨2, ![n, k]⟩ .f32) (b : FVec Ideal ⟨1, ![n]⟩ .f32)
    (r : Fin m) (j : Fin n) :
    addf (Host.dotGeneral (DotDims.plain m k n) none X (transpose ⟨2, ![k, n]⟩ [1, 0] w htr))
        (broadcastInDim ⟨2, ![m, n]⟩ ![0, 1] h01 (broadcastInDim ⟨2, ![1, n]⟩ ![1] h1 b)) (ix2 r j)
      = (∑ c : Fin k, X (ix2 r c) * w (ix2 j c)) + b (ix1 j) := by
  rw [addf_apply, StackMember.dotGeneral_plain_apply, rowDown_apply, rowBroadcast_apply]
  refine congrArg (· + b (ix1 j)) (Finset.sum_congr rfl fun c _ => ?_)
  rw [transpose_ix2_apply]

/-! ## Rows of a block are rows of the whole

A block of mb rows is cut out of a matrix of M rows by a map σ of row numbers. Every layer above reads, in row r
of its result, row r of its matrix operands only; so if the operands of the tiled layer are the σ-rows of the operands of
the whole-array layer, its result is the σ-rows of the whole-array result. -/

/-- Row p of the block b is row σ p of the matrix B. -/
def Rows {mb M k : ℕ} (σ : Fin mb → Fin M) (b : (⟨2, ![mb, k]⟩ : Shape).Idx → EReal)
    (B : (⟨2, ![M, k]⟩ : Shape).Idx → EReal) : Prop :=
  ∀ p c, b (ix2 p c) = B (ix2 (σ p) c)

section RowsLemmas

variable {mb M : ℕ} {σ : Fin mb → Fin M}

theorem Rows.addf {k : ℕ} {φ : FTy} {a b : FVec Ideal ⟨2, ![mb, k]⟩ φ} {A B : FVec Ideal ⟨2, ![M, k]⟩ φ}
    (ha : Rows σ a A) (hb : Rows σ b B) : Rows σ (addf a b) (addf A B) := fun p c => by
  show a _ + b _ = A _ + B _
  rw [ha p c, hb p c]

theorem Rows.mulf {k : ℕ} {φ : FTy} {a b : FVec Ideal ⟨2, ![mb, k]⟩ φ} {A B : FVec Ideal ⟨2, ![M, k]⟩ φ}
    (ha : Rows σ a A) (hb : Rows σ b B) : Rows σ (mulf a b) (mulf A B) := fun p c => by
  show a _ * b _ = A _ * B _
  rw [ha p c, hb p c]

theorem Rows.subf {k : ℕ} {φ : FTy} {a b : FVec Ideal ⟨2, ![mb, k]⟩ φ} {A B : FVec Ideal ⟨2, ![M, k]⟩ φ}
    (ha : Rows σ a A) (hb : Rows σ b B) : Rows σ (subf a b) (subf A B) := fun p c => by
  show a _ - b _ = A _ - B _
  rw [ha p c, hb p c]

/-- The vector unit's tanh against the host's. -/
theorem Rows.tanh {k : ℕ} {φ : FTy} {a : FVec Ideal ⟨2, ![mb, k]⟩ φ} {A : FVec Ideal ⟨2, ![M, k]⟩ φ}
    (ha : Rows σ a A) : Rows σ (tanh a) (Host.tanh A) := fun p c => congrArg Ideal.tanh (ha p c)

/-- A narrowing of the float format is the identity on extended reals. -/
theorem Rows.truncf {k : ℕ} {φ ψ : FTy} {a : FVec Ideal ⟨2, ![mb, k]⟩ φ} {A : (⟨2, ![M, k]⟩ : Shape).Idx → EReal}
    (h : ψ.bits < φ.bits) (ha : Rows σ a A) : Rows σ (truncf ψ a h) A := ha

/-- A scalar splat over the block against the same scalar broadcast over the whole matrix. -/
theorem Rows.splat {k : ℕ} (w : BitVec 32) (h : (⟨0, ![]⟩ : Shape).BroadcastsInDim ⟨2, ![M, k]⟩ ![]) :
    Rows σ (broadcast ⟨2, ![mb, k]⟩ (Scalar.ofBits (F := Ideal) .f32 w))
      (broadcastInDim ⟨2, ![M, k]⟩ ![] h (constant (F := Ideal) ⟨0, ![]⟩ .f32 w)) := fun p c => by
  rw [scalarBroadcast_apply]; rfl

/-- The larger of a value and zero: the splat of the scalar zero against the host's broadcast of it. -/
theorem Rows.relu {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (maximumf a (broadcast ⟨2, ![mb, k]⟩ (Scalar.ofBits (F := Ideal) .f32 0x00000000#32)))
      (maximumf A (broadcastInDim ⟨2, ![M, k]⟩ ![] h (constant (F := Ideal) ⟨0, ![]⟩ .f32 0x00000000#32))) := fun p c => by
  show max (a _) _ = max (A _) (broadcastInDim _ _ h _ _)
  rw [scalarBroadcast_apply, ha p c]; rfl

/-- The logistic function as one operation against its expansion 1 / (1 + exp (-x)) in the host's operations: both
    are the quotient of one by one plus the exponential of the negated argument. -/
theorem Rows.logistic {k : ℕ} {a : FVec Ideal ⟨2, ![mb, k]⟩ .f32} {A : FVec Ideal ⟨2, ![M, k]⟩ .f32}
    (h h' : (⟨0, ![]⟩ : Shape).BroadcastsInDim ⟨2, ![M, k]⟩ ![]) (ha : Rows σ a A) :
    Rows σ (logistic a)
      (Host.divf (broadcastInDim ⟨2, ![M, k]⟩ ![] h (constant (F := Ideal) ⟨0, ![]⟩ .f32 0x3F800000#32))
        (Idealize.ShloMosaic.addf (broadcastInDim ⟨2, ![M, k]⟩ ![] h' (constant (F := Ideal) ⟨0, ![]⟩ .f32 0x3F800000#32))
          (Host.exp (Host.negf A)))) := fun p c => by
  show Ideal.logistic (a _) = Ideal.div (broadcastInDim _ _ h _ _) (broadcastInDim _ _ h' _ _ + Ideal.exp (-(A _)))
  rw [scalarBroadcast_apply, Ideal.ofBits_one_f32, ha p c]
  rfl

/-- One minus a value: the splat of the scalar one against the host's broadcast of it. -/
theorem Rows.oneMinus {k : ℕ} {a : FVec Ideal ⟨2, ![mb, k]⟩ .f32} {A : FVec Ideal ⟨2, ![M, k]⟩ .f32}
    (h : (⟨0, ![]⟩ : Shape).BroadcastsInDim ⟨2, ![M, k]⟩ ![]) (ha : Rows σ a A) :
    Rows σ (Idealize.ShloMosaic.subf (broadcast ⟨2, ![mb, k]⟩ (Scalar.ofBits (F := Ideal) .f32 0x3F800000#32)) a)
      (Idealize.ShloMosaic.subf (broadcastInDim ⟨2, ![M, k]⟩ ![] h (constant (F := Ideal) ⟨0, ![]⟩ .f32 0x3F800000#32)) A) :=
  Rows.subf (Rows.splat _ h) ha

/-- A band of columns cut from both. -/
theorem Rows.sliceCols {k w : ℕ} (o : ℕ) {y : (⟨2, ![mb, k]⟩ : Shape).Idx → EReal}
    {Y : (⟨2, ![M, k]⟩ : Shape).Idx → EReal}
    (hs : (⟨2, ![mb, k]⟩ : Shape).Slices ![0, o] ⟨2, ![mb, w]⟩) (hS : (⟨2, ![M, k]⟩ : Shape).Slices ![0, o] ⟨2, ![M, w]⟩)
    (hy : Rows σ y Y) :
    Rows σ (extractStridedSlice ⟨2, ![mb, w]⟩ ![0, o] y hs) (extractStridedSlice ⟨2, ![M, w]⟩ ![0, o] Y hS) := fun p c => by
  have hlt : o + c.val < k := by
    have := hs.2 1; simp at this; omega
  rw [slice2_axis1_apply o y hs p c ⟨o + c.val, hlt⟩ rfl, slice2_axis1_apply o Y hS (σ p) c ⟨o + c.val, hlt⟩ rfl]
  exact hy p _

/-- The row normalisation. -/
theorem Rows.normalize {k : ℕ} (e : BitVec 32)
    (hred : (⟨2, ![mb, k]⟩ : Shape).Reduces [1] ⟨1, ![mb]⟩) (hfmt : FKind.Formats FTy.f32)
    (hacc : (0x00000000#32 : BitVec FTy.f32.bits) = FKind.add.neutral .f32 hfmt)
    (hsc : (⟨1, ![mb]⟩ : Shape).ShapeCasts ⟨2, ![mb, 1]⟩) (hbc : (⟨2, ![mb, 1]⟩ : Shape).Broadcasts ⟨2, ![mb, k]⟩)
    (hrt : (⟨2, ![M, k]⟩ : Shape).ReducesTo [1] ⟨1, ![M]⟩) (hRed : (⟨2, ![M, k]⟩ : Shape).Reduces [1] ⟨1, ![M]⟩)
    (hu : 0 < (⟨0, ![]⟩ : Shape).numel)
    (h0 : (⟨1, ![M]⟩ : Shape).BroadcastsInDim ⟨2, ![M, 1]⟩ ![0]) (hs : (⟨0, ![]⟩ : Shape).BroadcastsInDim ⟨2, ![M, 1]⟩ ![])
    (h01 : (⟨2, ![M, 1]⟩ : Shape).BroadcastsInDim ⟨2, ![M, k]⟩ ![0, 1])
    {x : FVec Ideal ⟨2, ![mb, k]⟩ .f32} {X : FVec Ideal ⟨2, ![M, k]⟩ .f32} (hx : Rows σ x X) :
    Rows σ
      (divf x (broadcastTo ⟨2, ![mb, k]⟩
        (maximumf (sqrt (shapeCast ⟨2, ![mb, 1]⟩ (multiReduction .add [1] ⟨1, ![mb]⟩ (Idealize.ShloMosaic.mulf x x) 0x00000000#32 hred hfmt hacc) hsc))
          (broadcast ⟨2, ![mb, 1]⟩ (Scalar.ofBits (F := Ideal) .f32 e))) hbc))
      (Host.divf X (broadcastInDim ⟨2, ![M, k]⟩ ![0, 1] h01
        (maximumf (Host.sqrt (broadcastInDim ⟨2, ![M, 1]⟩ ![0] h0
            (Host.reduceAdd (Idealize.ShloMosaic.mulf X X) (constant (F := Ideal) ⟨0, ![]⟩ .f32 0x00000000#32) hrt hu)))
          (broadcastInDim ⟨2, ![M, 1]⟩ ![] hs (constant (F := Ideal) ⟨0, ![]⟩ .f32 e))))) := fun p c => by
  rw [rowNormalize_apply, hostRowNormalize_apply e hrt hRed]
  simp only [hx p]

/-- The affine layer: the tiled product with the weight matrix contracted on its last axis against the host's plain
    product with the transposed weight matrix; the bias vector as a row, cast and broadcast against broadcast twice. -/
theorem Rows.affine {k n : ℕ} (h16 : FTy.bf16.bits < FTy.f32.bits)
    (hsc : (⟨1, ![n]⟩ : Shape).ShapeCasts ⟨2, ![1, n]⟩) (hbc : (⟨2, ![1, n]⟩ : Shape).Broadcasts ⟨2, ![mb, n]⟩)
    (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    {φ₁ : FTy} {x : FVec Ideal ⟨2, ![mb, k]⟩ φ₁} {X : FVec Ideal ⟨2, ![M, k]⟩ .f32} (hx : Rows σ x X)
    (w : FVec Ideal ⟨2, ![n, k]⟩ .f32) (b : FVec Ideal ⟨1, ![n]⟩ .f32) :
    Rows σ
      (Idealize.ShloMosaic.addf (matmul (DotDims.transposedRhs mb k n) none x (Idealize.ShloMosaic.truncf .bf16 w h16) (constant ⟨2, ![mb, n]⟩ .f32 0x00000000#32))
        (broadcastTo ⟨2, ![mb, n]⟩ (shapeCast ⟨2, ![1, n]⟩ b hsc) hbc))
      (Idealize.ShloMosaic.addf (Host.dotGeneral (DotDims.plain M k n) none X (transpose ⟨2, ![k, n]⟩ [1, 0] w htr))
        (broadcastInDim ⟨2, ![M, n]⟩ ![0, 1] h01 (broadcastInDim ⟨2, ![1, n]⟩ ![1] h1 b))) := fun p c => by
  rw [affineRows_apply, hostAffine_apply]
  simp only [hx p]

/-- Two matrices side by side. -/
theorem Rows.catCols {p q t : ℕ} {a : (⟨2, ![mb, p]⟩ : Shape).Idx → EReal} {b : (⟨2, ![mb, q]⟩ : Shape).Idx → EReal}
    {A : (⟨2, ![M, p]⟩ : Shape).Idx → EReal} {B : (⟨2, ![M, q]⟩ : Shape).Idx → EReal}
    (h : Shape.Concatenates [(⟨2, ![mb, p]⟩ : Shape), ⟨2, ![mb, q]⟩] ⟨2, ![mb, t]⟩ 1)
    (H : Shape.Concatenates [(⟨2, ![M, p]⟩ : Shape), ⟨2, ![M, q]⟩] ⟨2, ![M, t]⟩ 1)
    (ha : Rows σ a A) (hb : Rows σ b B) :
    Rows σ (concatenate ⟨2, ![mb, t]⟩ 1 [⟨⟨2, ![mb, p]⟩, a⟩, ⟨⟨2, ![mb, q]⟩, b⟩] h)
      (concatenate ⟨2, ![M, t]⟩ 1 [⟨⟨2, ![M, p]⟩, A⟩, ⟨⟨2, ![M, q]⟩, B⟩] H) := fun r c => by
  have ht : p + q = t := by
    have := h.2.2; simpa using this
  by_cases hc : c.val < p
  · rw [catCols_left h a b r c ⟨c.val, hc⟩ rfl, catCols_left H A B (σ r) c ⟨c.val, hc⟩ rfl]
    exact ha r _
  · have hq : c.val - p < q := by have := c.isLt; omega
    rw [catCols_right h a b r c ⟨c.val - p, hq⟩ (by show c.val - p + p = c.val; omega),
      catCols_right H A B (σ r) c ⟨c.val - p, hq⟩ (by show c.val - p + p = c.val; omega)]
    exact hb r _

end RowsLemmas

/-! ## The whole-array layers, named

The same expressions as the right-hand sides above, at any float instance: a network over whole arrays is written with
these, and each unfolds to the host operations a whole-array program prints. -/

section Whole

variable {F : FTy → Type} [FloatOps F] {M : ℕ}

/-- Each row divided by the larger of its Euclidean length and the floor e. -/
abbrev Whole.normalize {k : ℕ} (e : BitVec 32) (hrt : (⟨2, ![M, k]⟩ : Shape).ReducesTo [1] ⟨1, ![M]⟩)
    (hu : 0 < (⟨0, ![]⟩ : Shape).numel) (h0 : (⟨1, ![M]⟩ : Shape).BroadcastsInDim ⟨2, ![M, 1]⟩ ![0])
    (hs : (⟨0, ![]⟩ : Shape).BroadcastsInDim ⟨2, ![M, 1]⟩ ![])
    (h01 : (⟨2, ![M, 1]⟩ : Shape).BroadcastsInDim ⟨2, ![M, k]⟩ ![0, 1])
    (X : FVec F ⟨2, ![M, k]⟩ .f32) : FVec F ⟨2, ![M, k]⟩ .f32 :=
  Host.divf X (broadcastInDim ⟨2, ![M, k]⟩ ![0, 1] h01
    (maximumf (Host.sqrt (broadcastInDim ⟨2, ![M, 1]⟩ ![0] h0
        (Host.reduceAdd (mulf X X) (constant (F := F) ⟨0, ![]⟩ .f32 0x00000000#32) hrt hu)))
      (broadcastInDim ⟨2, ![M, 1]⟩ ![] hs (constant (F := F) ⟨0, ![]⟩ .f32 e))))

/-- x · wᵀ + b, the bias vector added to every row. -/
abbrev Whole.affine {k n : ℕ} (htr : (⟨2, ![n, k]⟩ : Shape).Transposes [1, 0] ⟨2, ![k, n]⟩)
    (h1 : (⟨1, ![n]⟩ : Shape).BroadcastsInDim ⟨2, ![1, n]⟩ ![1])
    (h01 : (⟨2, ![1, n]⟩ : Shape).BroadcastsInDim ⟨2, ![M, n]⟩ ![0, 1])
    (X : FVec F ⟨2, ![M, k]⟩ .f32) (w : FVec F ⟨2, ![n, k]⟩ .f32) (b : FVec F ⟨1, ![n]⟩ .f32) : FVec F ⟨2, ![M, n]⟩ .f32 :=
  addf (Host.dotGeneral (DotDims.plain M k n) none X (transpose ⟨2, ![k, n]⟩ [1, 0] w htr))
    (broadcastInDim ⟨2, ![M, n]⟩ ![0, 1] h01 (broadcastInDim ⟨2, ![1, n]⟩ ![1] h1 b))

/-- The larger of each entry and zero. -/
abbrev Whole.relu {k : ℕ} (h : (⟨0, ![]⟩ : Shape).BroadcastsInDim ⟨2, ![M, k]⟩ ![]) (Y : FVec F ⟨2, ![M, k]⟩ .f32) :
    FVec F ⟨2, ![M, k]⟩ .f32 :=
  maximumf Y (broadcastInDim ⟨2, ![M, k]⟩ ![] h (constant (F := F) ⟨0, ![]⟩ .f32 0x00000000#32))

/-- 1 / (1 + exp (-y)), entry by entry. -/
abbrev Whole.sigmoid {k : ℕ} (h : (⟨0, ![]⟩ : Shape).BroadcastsInDim ⟨2, ![M, k]⟩ ![]) (Y : FVec F ⟨2, ![M, k]⟩ .f32) :
    FVec F ⟨2, ![M, k]⟩ .f32 :=
  Host.divf (broadcastInDim ⟨2, ![M, k]⟩ ![] h (constant (F := F) ⟨0, ![]⟩ .f32 0x3F800000#32))
    (addf (broadcastInDim ⟨2, ![M, k]⟩ ![] h (constant (F := F) ⟨0, ![]⟩ .f32 0x3F800000#32)) (Host.exp (Host.negf Y)))

/-- One step of a gated recurrent cell from its two affine images gi, gh (each three bands of h columns: reset,
    update, candidate) and the previous state H:  r = σ(giᵣ + ghᵣ), z = σ(gi_z + gh_z), n = tanh(giₙ + r·ghₙ),
    result (1 − z)·n + z·H. -/
abbrev Whole.gru {h h3 : ℕ} (o1 o2 : ℕ)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    (gi gh : FVec F ⟨2, ![M, h3]⟩ .f32) (H : FVec F ⟨2, ![M, h]⟩ .f32) : FVec F ⟨2, ![M, h]⟩ .f32 :=
  addf
    (mulf (subf (broadcastInDim ⟨2, ![M, h]⟩ ![] hb (constant (F := F) ⟨0, ![]⟩ .f32 0x3F800000#32))
        (Whole.sigmoid hb (addf (extractStridedSlice ⟨2, ![M, h]⟩ ![0, o1] gi s1) (extractStridedSlice ⟨2, ![M, h]⟩ ![0, o1] gh s1))))
      (Host.tanh (addf (extractStridedSlice ⟨2, ![M, h]⟩ ![0, o2] gi s2)
        (mulf (Whole.sigmoid hb (addf (extractStridedSlice ⟨2, ![M, h]⟩ ![0, 0] gi s0) (extractStridedSlice ⟨2, ![M, h]⟩ ![0, 0] gh s0)))
          (extractStridedSlice ⟨2, ![M, h]⟩ ![0, o2] gh s2)))))
    (mulf (Whole.sigmoid hb (addf (extractStridedSlice ⟨2, ![M, h]⟩ ![0, o1] gi s1) (extractStridedSlice ⟨2, ![M, h]⟩ ![0, o1] gh s1))) H)

end Whole

section MoreRows

variable {mb M : ℕ} {σ : Fin mb → Fin M}

/-- One row repeated down the block against a vector broadcast along the columns of the whole matrix: both read
    entry j of the same list of n numbers. -/
theorem Rows.constRows {n : ℕ} (hsc : (⟨2, ![1, n]⟩ : Shape).ShapeCasts ⟨2, ![1, n]⟩)
    (hbc : (⟨2, ![1, n]⟩ : Shape).Broadcasts ⟨2, ![mb, n]⟩) (h : (⟨1, ![n]⟩ : Shape).BroadcastsInDim ⟨2, ![M, n]⟩ ![1])
    {v : (⟨2, ![1, n]⟩ : Shape).Idx → EReal} {E : (⟨1, ![n]⟩ : Shape).Idx → EReal} (hv : ∀ j : Fin n, v (ix2 (0 : Fin 1) j) = E (ix1 j)) :
    Rows σ (broadcastTo ⟨2, ![mb, n]⟩ (shapeCast ⟨2, ![1, n]⟩ (shapeCast ⟨2, ![1, n]⟩ v hsc) hsc) hbc)
      (broadcastInDim ⟨2, ![M, n]⟩ ![1] h E) := fun p c => by
  rw [oneRow_apply, rowBroadcast_apply, hv]

/-- Three matrices side by side. -/
theorem Rows.catCols3 {p q s t : ℕ} {a : (⟨2, ![mb, p]⟩ : Shape).Idx → EReal} {b : (⟨2, ![mb, q]⟩ : Shape).Idx → EReal}
    {d : (⟨2, ![mb, s]⟩ : Shape).Idx → EReal}
    {A : (⟨2, ![M, p]⟩ : Shape).Idx → EReal} {B : (⟨2, ![M, q]⟩ : Shape).Idx → EReal} {D : (⟨2, ![M, s]⟩ : Shape).Idx → EReal}
    (h : Shape.Concatenates [(⟨2, ![mb, p]⟩ : Shape), ⟨2, ![mb, q]⟩, ⟨2, ![mb, s]⟩] ⟨2, ![mb, t]⟩ 1)
    (H : Shape.Concatenates [(⟨2, ![M, p]⟩ : Shape), ⟨2, ![M, q]⟩, ⟨2, ![M, s]⟩] ⟨2, ![M, t]⟩ 1)
    (ha : Rows σ a A) (hb : Rows σ b B) (hd : Rows σ d D) :
    Rows σ (concatenate ⟨2, ![mb, t]⟩ 1 [⟨⟨2, ![mb, p]⟩, a⟩, ⟨⟨2, ![mb, q]⟩, b⟩, ⟨⟨2, ![mb, s]⟩, d⟩] h)
      (concatenate ⟨2, ![M, t]⟩ 1 [⟨⟨2, ![M, p]⟩, A⟩, ⟨⟨2, ![M, q]⟩, B⟩, ⟨⟨2, ![M, s]⟩, D⟩] H) := fun r c => by
  have ht : p + q + s = t := by
    have := h.2.2; simpa [Nat.add_assoc] using this
  have side : ∀ (mm : ℕ) (rr : Fin mm) (x : (⟨2, ![mm, p]⟩ : Shape).Idx → EReal) (y : (⟨2, ![mm, q]⟩ : Shape).Idx → EReal)
      (z : (⟨2, ![mm, s]⟩ : Shape).Idx → EReal)
      (hh : Shape.Concatenates [(⟨2, ![mm, p]⟩ : Shape), ⟨2, ![mm, q]⟩, ⟨2, ![mm, s]⟩] ⟨2, ![mm, t]⟩ 1),
      concatenate ⟨2, ![mm, t]⟩ 1 [⟨⟨2, ![mm, p]⟩, x⟩, ⟨⟨2, ![mm, q]⟩, y⟩, ⟨⟨2, ![mm, s]⟩, z⟩] hh (ix2 rr c)
        = if h1 : c.val < p then x (ix2 rr ⟨c.val, h1⟩)
          else if h2 : c.val < p + q then y (ix2 rr ⟨c.val - p, by omega⟩)
          else z (ix2 rr ⟨c.val - (p + q), by have := c.isLt; omega⟩) := by
    intro mm rr x y z hh
    by_cases h1 : c.val < p
    · rw [dif_pos h1]
      exact concatenate_apply_piece 1 [⟨⟨2, ![mm, p]⟩, x⟩, ⟨⟨2, ![mm, q]⟩, y⟩, ⟨⟨2, ![mm, s]⟩, z⟩] hh (ix2 rr c) 0 (by simp) _ x rfl rfl 0 (by simp) (ix2 rr ⟨c.val, h1⟩)
        (fun ax hax => by match ax with | ⟨0, _⟩ => rfl | ⟨1, _⟩ => exact absurd rfl hax) (by show 0 + c.val = c.val; omega)
    · rw [dif_neg h1]
      by_cases h2 : c.val < p + q
      · rw [dif_pos h2]
        exact concatenate_apply_piece 1 [⟨⟨2, ![mm, p]⟩, x⟩, ⟨⟨2, ![mm, q]⟩, y⟩, ⟨⟨2, ![mm, s]⟩, z⟩] hh (ix2 rr c) 1 (by simp) _ y rfl rfl p (by simp) (ix2 rr ⟨c.val - p, by omega⟩)
          (fun ax hax => by match ax with | ⟨0, _⟩ => rfl | ⟨1, _⟩ => exact absurd rfl hax) (by show p + (c.val - p) = c.val; omega)
      · rw [dif_neg h2]
        exact concatenate_apply_piece 1 [⟨⟨2, ![mm, p]⟩, x⟩, ⟨⟨2, ![mm, q]⟩, y⟩, ⟨⟨2, ![mm, s]⟩, z⟩] hh (ix2 rr c) 2 (by simp) _ z rfl rfl (p + q) (by simp)
          (ix2 rr ⟨c.val - (p + q), by have := c.isLt; omega⟩)
          (fun ax hax => by match ax with | ⟨0, _⟩ => rfl | ⟨1, _⟩ => exact absurd rfl hax) (by show p + q + (c.val - (p + q)) = c.val; omega)
  rw [side mb r a b d h, side M (σ r) A B D H]
  split
  · exact ha r _
  · split
    · exact hb r _
    · exact hd r _

/-- The recurrent cell: the tiled spelling (the logistic function as one operation, the vector unit's tanh, scalar
    splats) of a block against the whole-array cell, when the block's gi, gh and previous state are the σ-rows of the
    whole arrays'. -/
theorem Rows.gru {h h3 : ℕ} (o1 o2 : ℕ)
    (t0 : (⟨2, ![mb, h3]⟩ : Shape).Slices ![0, 0] ⟨2, ![mb, h]⟩) (t1 : (⟨2, ![mb, h3]⟩ : Shape).Slices ![0, o1] ⟨2, ![mb, h]⟩)
    (t2 : (⟨2, ![mb, h3]⟩ : Shape).Slices ![0, o2] ⟨2, ![mb, h]⟩)
    (s0 : (⟨2, ![M, h3]⟩ : Shape).Slices ![0, 0] ⟨2, ![M, h]⟩) (s1 : (⟨2, ![M, h3]⟩ : Shape).Slices ![0, o1] ⟨2, ![M, h]⟩)
    (s2 : (⟨2, ![M, h3]⟩ : Shape).Slices ![0, o2] ⟨2, ![M, h]⟩)
    (hb : (⟨0, ![]⟩ : Shape).BroadcastsInDim ⟨2, ![M, h]⟩ ![])
    {gi gh : FVec Ideal ⟨2, ![mb, h3]⟩ .f32} {hp : FVec Ideal ⟨2, ![mb, h]⟩ .f32}
    {Gi Gh : FVec Ideal ⟨2, ![M, h3]⟩ .f32} {H : FVec Ideal ⟨2, ![M, h]⟩ .f32}
    (hgi : Rows σ gi Gi) (hgh : Rows σ gh Gh) (hH : Rows σ hp H) :
    Rows σ
      (Idealize.ShloMosaic.addf
        (Idealize.ShloMosaic.mulf (Idealize.ShloMosaic.subf (broadcast ⟨2, ![mb, h]⟩ (Scalar.ofBits (F := Ideal) .f32 0x3F800000#32))
            (Idealize.ShloMosaic.logistic (Idealize.ShloMosaic.addf (extractStridedSlice ⟨2, ![mb, h]⟩ ![0, o1] gi t1) (extractStridedSlice ⟨2, ![mb, h]⟩ ![0, o1] gh t1))))
          (Idealize.ShloMosaic.tanh (Idealize.ShloMosaic.addf (extractStridedSlice ⟨2, ![mb, h]⟩ ![0, o2] gi t2)
            (Idealize.ShloMosaic.mulf (Idealize.ShloMosaic.logistic (Idealize.ShloMosaic.addf (extractStridedSlice ⟨2, ![mb, h]⟩ ![0, 0] gi t0) (extractStridedSlice ⟨2, ![mb, h]⟩ ![0, 0] gh t0)))
              (extractStridedSlice ⟨2, ![mb, h]⟩ ![0, o2] gh t2)))))
        (Idealize.ShloMosaic.mulf (Idealize.ShloMosaic.logistic (Idealize.ShloMosaic.addf (extractStridedSlice ⟨2, ![mb, h]⟩ ![0, o1] gi t1) (extractStridedSlice ⟨2, ![mb, h]⟩ ![0, o1] gh t1))) hp))
      (Whole.gru (F := Ideal) o1 o2 s0 s1 s2 hb Gi Gh H) :=
  Rows.addf
    (Rows.mulf (Rows.oneMinus hb (Rows.logistic hb hb (Rows.addf (Rows.sliceCols o1 t1 s1 hgi) (Rows.sliceCols o1 t1 s1 hgh))))
      (Rows.tanh (Rows.addf (Rows.sliceCols o2 t2 s2 hgi)
        (Rows.mulf (Rows.logistic hb hb (Rows.addf (Rows.sliceCols 0 t0 s0 hgi) (Rows.sliceCols 0 t0 s0 hgh)))
          (Rows.sliceCols o2 t2 s2 hgh)))))
    (Rows.mulf (Rows.logistic hb hb (Rows.addf (Rows.sliceCols o1 t1 s1 hgi) (Rows.sliceCols o1 t1 s1 hgh))) hH)

end MoreRows

end RowLayers

end
-- ==== Proof.LnBody.lean ====
/-
  The LayerNorm-and-projection body, read at one entry of its output block. The block it stores is [1, 512, 16]; its
  entry (0, l, c) depends on row l of the input block only: the row is normalised with its own mean and variance and
  then contracted against row c of the weight block.
-/
import proofs.«107976_j8899172237442_1_alg».proof.Proof.Spec
import proofs.«107976_j8899172237442_1_alg».proof.Proof.Consts
import proofs.«107976_j8899172237442_1_alg».proof.Proof.Gen.KernelIdeal.Skeleton
import proofs.«107976_j8899172237442_1_alg».proof.Proof.LibRowLayers
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Hand

open Cert.KernelIdeal Cert.KernelIdeal.Gen

/-- The sum of row l of a [512, 256] block: the reduction along the columns, read at l, is the plain sum over the
    256 column coordinates (the inserted index of a column reduction is (l, k)). -/
theorem lnRowSum_apply (v : FVec Ideal S512x256 .f32) (l : Fin 512) :
    multiReduction (F := Ideal) .add [1] S512 v 0x00000000#32 reduces_S512x256_S512 (.inl rfl) rfl (ix1 l)
      = ∑ k : Fin 256, v (ix2 l k) := by
  refine (Ideal.multiReduction_add_single v 0x00000000#32 reduces_S512x256_S512 (.inl rfl) rfl (ix1 l)).trans ?_
  refine Finset.sum_congr rfl fun k _ => ?_
  rw [RowLayers.lift_cols]
  rfl

/-- Left operand of the product, axis 0: a non-contracting axis, read from the result index's axis 0. -/
theorem lnLhs_0 (i : S512x16.Idx) (q : dot_S512x256_S256x16_S512x16_1_0_0_1_n_n.contr.Idx) :
    (dot_S512x256_S256x16_S512x16_1_0_0_1_n_n.lhsIdx i q 0).val = (i 0).val := by
  unfold DotDims.lhsIdx
  rw [dif_neg (show ¬(0 : Fin S512x256.rank) ∈ dot_S512x256_S256x16_S512x16_1_0_0_1_n_n.lhsBatch by decide), dif_pos (show (0 : Fin S512x256.rank) ∈ dot_S512x256_S256x16_S512x16_1_0_0_1_n_n.lhsNonContracting by decide)]
  rfl

/-- Left operand, axis 1: the one contracting axis, read from the contraction index. -/
theorem lnLhs_1 (i : S512x16.Idx) (q : dot_S512x256_S256x16_S512x16_1_0_0_1_n_n.contr.Idx) :
    (dot_S512x256_S256x16_S512x16_1_0_0_1_n_n.lhsIdx i q 1).val = (q ⟨0, by decide⟩).val :=
  dot_S512x256_S256x16_S512x16_1_0_0_1_n_n.lhsIdx_val_of_single rfl i q

/-- Right operand, axis 0: the one contracting axis, read from the contraction index. -/
theorem lnRhs_0 (i : S512x16.Idx) (q : dot_S512x256_S256x16_S512x16_1_0_0_1_n_n.contr.Idx) :
    (dot_S512x256_S256x16_S512x16_1_0_0_1_n_n.rhsIdx i q 0).val = (q ⟨0, by decide⟩).val :=
  dot_S512x256_S256x16_S512x16_1_0_0_1_n_n.rhsIdx_val_of_single rfl i q

/-- Right operand, axis 1: a non-contracting axis, read from the result index's axis 1. -/
theorem lnRhs_1 (i : S512x16.Idx) (q : dot_S512x256_S256x16_S512x16_1_0_0_1_n_n.contr.Idx) :
    (dot_S512x256_S256x16_S512x16_1_0_0_1_n_n.rhsIdx i q 1).val = (i 1).val := by
  unfold DotDims.rhsIdx
  rw [dif_neg (show ¬(1 : Fin S256x16.rank) ∈ dot_S512x256_S256x16_S512x16_1_0_0_1_n_n.rhsBatch by decide), dif_pos (show (1 : Fin S256x16.rank) ∈ dot_S512x256_S256x16_S512x16_1_0_0_1_n_n.rhsNonContracting by decide)]
  rfl

/-- The [512, 256] × [256, 16] product into the zero accumulator, at (l, c): the sum over the contracted coordinate
    k of the left operand at (l, k) times the right at (k, c). -/
theorem lnMatmul_apply {φ₁ φ₂ : FTy} (a : FVec Ideal S512x256 φ₁) (b : FVec Ideal S256x16 φ₂) (l : Fin 512) (c : Fin 16) :
    matmul dot_S512x256_S256x16_S512x16_1_0_0_1_n_n none a b (constant (F := Ideal) S512x16 .f32 0x00000000#32) (ix2 l c)
      = ∑ k : Fin 256, a (ix2 l k) * b (ix2 k c) := by
  simp only [matmul]
  rw [Ideal.matmul_constant_zero_apply, ← Equiv.sum_comp (ValueIdx.contrEquiv1 dot_S512x256_S256x16_S512x16_1_0_0_1_n_n 256 rfl rfl).symm]
  refine Finset.sum_congr rfl fun k _ => ?_
  have hk := ValueIdx.contrEquiv1_symm_val dot_S512x256_S256x16_S512x16_1_0_0_1_n_n 256 rfl rfl k
  have el : dot_S512x256_S256x16_S512x16_1_0_0_1_n_n.lhsIdx (ix2 l c) ((ValueIdx.contrEquiv1 dot_S512x256_S256x16_S512x16_1_0_0_1_n_n 256 rfl rfl).symm k) = ix2 l k := funext fun a => Fin.ext (by
    match a with
    | ⟨0, _⟩ => exact lnLhs_0 _ _
    | ⟨1, _⟩ => exact (lnLhs_1 _ _).trans hk)
  have er : dot_S512x256_S256x16_S512x16_1_0_0_1_n_n.rhsIdx (ix2 l c) ((ValueIdx.contrEquiv1 dot_S512x256_S256x16_S512x16_1_0_0_1_n_n 256 rfl rfl).symm k) = ix2 k c := funext fun a => Fin.ext (by
    match a with
    | ⟨0, _⟩ => exact (lnRhs_0 _ _).trans hk
    | ⟨1, _⟩ => exact lnRhs_1 _ _)
  rw [el, er]

/-- The column of row means of a [512, 256] block: the row sums, made a column, divided by the word of 256. -/
def lnMeanCol (v : FVec Ideal S512x256 .f32) : FVec Ideal S512x1 .f32 :=
  divf (shapeCast S512x1 (multiReduction (F := Ideal) .add [1] S512 v 0x00000000#32 reduces_S512x256_S512 (.inl rfl) rfl) shapeCasts_S512_S512x1)
    (broadcast S512x1 (Scalar.ofBits (F := Ideal) .f32 0x43800000#32))

/-- The block with each row's mean subtracted from the row's entries. -/
def lnCentered (v : FVec Ideal S512x256 .f32) : FVec Ideal S512x256 .f32 :=
  subf v (broadcastTo S512x256 (lnMeanCol v) broadcasts_S512x1_S512x256)

/-- The normalised, scaled and shifted block: the centred entries times the reciprocal square root of the row's
    variance plus epsilon, times the weight row, plus the bias row. -/
def lnNormedRows (v : FVec Ideal S512x256 .f32) (w b : Vec Ideal S256 .f32) : FVec Ideal S512x256 .f32 :=
  addf
    (mulf
      (mulf (lnCentered v)
        (broadcastTo S512x256
          (rsqrt (addf (lnMeanCol (mulf (lnCentered v) (lnCentered v))) (broadcast S512x1 (Scalar.ofBits (F := Ideal) .f32 0x3727C5AC#32))))
          broadcasts_S512x1_S512x256))
      (broadcastTo S512x256 (shapeCast S1x256 w shapeCasts_S256_S1x256) broadcasts_S1x256_S512x256))
    (broadcastTo S512x256 (shapeCast S1x256 b shapeCasts_S256_S1x256) broadcasts_S1x256_S512x256)

/-- The stored value is the product of the normalised block (of the input block without its unit axis) with the
    transposed weight block, with a unit axis put back: the payload's operations, grouped. -/
theorem lnPayload_eq (x0 : Vec Ideal S1x512x256 .f32) (x1 x2 : Vec Ideal S256 .f32) (x3 : Vec Ideal S16x256 .f32) :
    k0_pay1 (F := Ideal) x0 x1 x2 x3
      = shapeCast S1x512x16
          (matmul dot_S512x256_S256x16_S512x16_1_0_0_1_n_n none
            (truncf .bf16 (lnNormedRows (shapeCast S512x256 x0 shapeCasts_S1x512x256_S512x256) x1 x2) bitsLt_bf16_f32)
            (transpose S256x16 [1, 0] (truncf .bf16 x3 bitsLt_bf16_f32) transposes_S16x256_p1_0_S256x16)
            (constant (F := Ideal) S512x16 .f32 0x00000000#32))
          shapeCasts_S512x16_S1x512x16 := rfl

/-- The mean column at row l is the mean of row l. -/
theorem lnMeanCol_apply (v : FVec Ideal S512x256 .f32) (l : Fin 512) (u : Fin 1) :
    lnMeanCol v (ix2 l u) = Cert.Spec.mean (fun k => v (ix2 l k)) := by
  unfold lnMeanCol Cert.Spec.mean
  rw [divf_apply, RowLayers.column_apply, lnRowSum_apply]
  rfl

/-- The centred block at (l, k) is the entry minus the mean of row l. -/
theorem lnCentered_apply (v : FVec Ideal S512x256 .f32) (l : Fin 512) (k : Fin 256) :
    lnCentered v (ix2 l k) = v (ix2 l k) - Cert.Spec.mean (fun k => v (ix2 l k)) := by
  unfold lnCentered
  rw [subf_apply, RowLayers.broadcastColumn_apply, lnMeanCol_apply]

/-- The mean column of the squared centred block at row l is the variance of row l. -/
theorem lnVarCol_apply (v : FVec Ideal S512x256 .f32) (l : Fin 512) (u : Fin 1) :
    lnMeanCol (mulf (lnCentered v) (lnCentered v)) (ix2 l u) = Cert.Spec.var (fun k => v (ix2 l k)) := by
  rw [lnMeanCol_apply]
  unfold Cert.Spec.var Cert.Spec.mean
  refine congrArg (fun s => Ideal.div s Cert.Spec.w256) (Finset.sum_congr rfl fun k _ => ?_)
  show lnCentered v (ix2 l k) * lnCentered v (ix2 l k) = _
  rw [lnCentered_apply]
  rfl

/-- The reciprocal square root of a block at an index is that of the entry. -/
theorem lnRsqrt_apply {s : Shape} {φ : FTy} (v : FVec Ideal s φ) (i : s.Idx) : rsqrt v i = Ideal.rsqrt (v i) := rfl

/-- The normalised block at (l, k) is entry k of the normalised row l. -/
theorem lnNormedRows_apply (v : FVec Ideal S512x256 .f32) (w b : Vec Ideal S256 .f32) (l : Fin 512) (k : Fin 256) :
    lnNormedRows v w b (ix2 l k)
      = Cert.Spec.normed (fun k => v (ix2 l k)) (fun k => w (ix1 k)) (fun k => b (ix1 k)) k := by
  unfold lnNormedRows Cert.Spec.normed
  rw [addf_apply, mulf_apply, mulf_apply, lnCentered_apply, RowLayers.broadcastColumn_apply,
    RowLayers.biasRow_apply, RowLayers.biasRow_apply, lnRsqrt_apply, addf_apply, lnVarCol_apply]
  rfl

/-- Entry (0, l, c) of the stored value is the projection, onto channel c, of the normalised row l. -/
theorem lnPayload_apply (x0 : Vec Ideal S1x512x256 .f32) (x1 x2 : Vec Ideal S256 .f32) (x3 : Vec Ideal S16x256 .f32)
    (l : Fin 512) (c : Fin 16) :
    k0_pay1 (F := Ideal) x0 x1 x2 x3 (ix3 0 l c)
      = Cert.Spec.proj (fun k => x0 (ix3 0 l k)) (fun k => x1 (ix1 k)) (fun k => x2 (ix1 k)) (fun c' k => x3 (ix2 c' k)) c := by
  -- row l of the block without its unit axis is row (0, l) of the block
  have hrow : (fun k : Fin 256 => shapeCast S512x256 x0 shapeCasts_S1x512x256_S512x256 (ix2 l k)) = fun k => x0 (ix3 0 l k) :=
    funext fun k => shapeCast_1ab_ab_apply x0 shapeCasts_S1x512x256_S512x256 l k
  rw [lnPayload_eq]
  -- the unit axis put back, then the product as the sum over the contracted coordinate
  refine (shapeCast_ab_1ab_apply _ shapeCasts_S512x16_S1x512x16 0 l c).trans ?_
  refine (lnMatmul_apply _ _ l c).trans ?_
  unfold Cert.Spec.proj
  refine Finset.sum_congr rfl fun k _ => ?_
  -- the format changes are the identity; the left factor is the normalised entry, the right the transposed weight
  rw [truncf_apply, lnNormedRows_apply, hrow, transpose_ix2_apply, truncf_apply]

/-- The second LayerNorm region runs the same function body, so its stored value is the same function of its loads. -/
theorem lnPayload1_eq (x0 : Vec Ideal S1x512x256 .f32) (x1 x2 : Vec Ideal S256 .f32) (x3 : Vec Ideal S16x256 .f32) :
    k1_pay1 (F := Ideal) x0 x1 x2 x3 = k0_pay1 (F := Ideal) x0 x1 x2 x3 := rfl

end Cert.KernelIdeal.Hand

end
-- ==== Proof.Zeros.lean ====
/-
  The offset vector of a store or load that starts at the origin of its buffer, at each rank met here, as the
  constant-zero function: the form in which a whole-buffer access is read back as the value itself.
-/
import Mathlib.Data.Fin.VecNotation

namespace Cert.KernelIdeal.Hand

theorem zeros1 : (![0] : Fin 1 → Nat) = fun _ => 0 := funext (by decide : ∀ a : Fin 1, (![0] : Fin 1 → Nat) a = 0)
theorem zeros2 : (![0, 0] : Fin 2 → Nat) = fun _ => 0 := funext (by decide : ∀ a : Fin 2, (![0, 0] : Fin 2 → Nat) a = 0)
theorem zeros3 : (![0, 0, 0] : Fin 3 → Nat) = fun _ => 0 :=
  funext (by decide : ∀ a : Fin 3, (![0, 0, 0] : Fin 3 → Nat) a = 0)
theorem zeros4 : (![0, 0, 0, 0] : Fin 4 → Nat) = fun _ => 0 :=
  funext (by decide : ∀ a : Fin 4, (![0, 0, 0, 0] : Fin 4 → Nat) a = 0)

end Cert.KernelIdeal.Hand
-- ==== Proof.Region0.lean ====
/-
  The first LayerNorm-and-projection region, from blocks to the whole array. Its grid has 4 points; point t reads
  rows (t, ·, ·) of the [4, 512, 256] input (a [1, 512, 256] block), the whole scale, shift and weight arrays, and writes
  back rows (t, ·, ·) of the [4, 512, 16] output. Each written entry depends on one input row only, so what point t
  writes is block t of ONE whole-array function of the entry arrays; the 4 blocks tile the output, so the output array
  ends holding that function. The entry arrays are a parameter: the same statement serves wherever the region runs.
-/
import proofs.«107976_j8899172237442_1_alg».proof.Proof.Gen.KernelIdeal.Frame
import proofs.«107976_j8899172237442_1_alg».proof.Proof.LnBody
import proofs.«107976_j8899172237442_1_alg».proof.Proof.Zeros
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- A grid point of the region as a batch number. -/
def batch0 (t : Fin cfg0.N) : Fin 4 := ⟨t.val, by have := t.isLt; have h : cfg0.N = 4 := N_0; omega⟩

/-- The block index of every window at every point: the input and output blocks move with the point along the
    batch axis; the scale, shift and weight windows stay at block 0. -/
theorem blockIdx0 : ∀ t : Fin cfg0.N,
    win0_0.index t (0 : Fin 3) = t.val ∧ win0_0.index t (1 : Fin 3) = 0 ∧ win0_0.index t (2 : Fin 3) = 0
    ∧ win0_1.index t (0 : Fin 1) = 0 ∧ win0_2.index t (0 : Fin 1) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- Row l of the input block at point t is row (t, l) of the input array. -/
theorem inBlock0 (c : Dev nD) (t : Fin cfg0.N) (l : Fin 512) (k : Fin 256) :
    (iblk0 V c 0 t : Vec Ideal S1x512x256 .f32) (ix3 (0 : Fin 1) l k)
      = (V c main_arg0 : S4x512x256.Idx → EReal) (ix3 (batch0 t) l k) := by
  obtain ⟨e0, e1, e2, -⟩ := blockIdx0 t
  unfold iblk0
  rw [View.read_apply]
  show V c main_arg0 _ = V c main_arg0 _
  congr 1
  funext a
  apply Fin.ext
  match a with
  | ⟨0, _⟩ => show win0_0.index t (0 : Fin 3) * 1 + 1 * 0 = t.val; omega
  | ⟨1, _⟩ => show win0_0.index t (1 : Fin 3) * 512 + 1 * l.val = l.val; omega
  | ⟨2, _⟩ => show win0_0.index t (2 : Fin 3) * 256 + 1 * k.val = k.val; omega

/-- The scale window's block is the whole scale array. -/
theorem scaleBlock0 (c : Dev nD) (t : Fin cfg0.N) (k : Fin 256) :
    (iblk0 V c 1 t : Vec Ideal S256 .f32) (ix1 k) = (V c main_arg2 : S256.Idx → EReal) (ix1 k) := by
  obtain ⟨-, -, -, e, -⟩ := blockIdx0 t
  unfold iblk0
  rw [View.read_apply]
  show V c main_arg2 _ = V c main_arg2 _
  congr 1
  funext a
  apply Fin.ext
  match a with
  | ⟨0, _⟩ => show win0_1.index t (0 : Fin 1) * 256 + 1 * k.val = k.val; omega

/-- The shift window's block is the whole shift array. -/
theorem shiftBlock0 (c : Dev nD) (t : Fin cfg0.N) (k : Fin 256) :
    (iblk0 V c 2 t : Vec Ideal S256 .f32) (ix1 k) = (V c main_arg3 : S256.Idx → EReal) (ix1 k) := by
  obtain ⟨-, -, -, -, e, -⟩ := blockIdx0 t
  unfold iblk0
  rw [View.read_apply]
  show V c main_arg3 _ = V c main_arg3 _
  congr 1
  funext a
  apply Fin.ext
  match a with
  | ⟨0, _⟩ => show win0_2.index t (0 : Fin 1) * 256 + 1 * k.val = k.val; omega

/-- The weight window's block is the whole weight array. -/
theorem weightBlock0 (c : Dev nD) (t : Fin cfg0.N) (ch : Fin 16) (k : Fin 256) :
    (iblk0 V c 3 t : Vec Ideal S16x256 .f32) (ix2 ch k) = (V c main_arg6 : S16x256.Idx → EReal) (ix2 ch k) := by
  obtain ⟨-, -, -, -, -, e0, e1, -⟩ := blockIdx0 t
  unfold iblk0
  rw [View.read_apply]
  show V c main_arg6 _ = V c main_arg6 _
  congr 1
  funext a
  apply Fin.ext
  match a with
  | ⟨0, _⟩ => show win0_3.index t (0 : Fin 2) * 16 + 1 * ch.val = ch.val; omega
  | ⟨1, _⟩ => show win0_3.index t (1 : Fin 2) * 256 + 1 * k.val = k.val; omega

/-- Entry (0, l, ch) of the output block at point t sits at (t, l, ch) in the output array. -/
theorem outPlace0 (t : Fin cfg0.N) (l : Fin 512) (ch : Fin 16) :
    ((cfg0.win 4).blk t).view.emb (ix3 (0 : Fin 1) l ch) = (ix3 (batch0 t) l ch : S4x512x16.Idx) := by
  obtain ⟨-, -, -, -, -, -, -, e0, e1, e2⟩ := blockIdx0 t
  funext a
  apply Fin.ext
  match a with
  | ⟨0, _⟩ => show win0_4.index t (0 : Fin 3) * 1 + 1 * 0 = t.val; omega
  | ⟨1, _⟩ => show win0_4.index t (1 : Fin 3) * 512 + 1 * l.val = l.val; omega
  | ⟨2, _⟩ => show win0_4.index t (2 : Fin 3) * 16 + 1 * ch.val = ch.val; omega

/-- What point t writes back is block t of the projected rows of the entry arrays. -/
theorem written0 (c : Dev nD) (t : Fin cfg0.N) :
    (dat0 V c).flushed 4 t = ((cfg0.win 4).blk t).view.read (Elt Ideal)
      (Cert.Spec.lnProj (V c main_arg0) (V c main_arg2) (V c main_arg3) (V c main_arg6)) := by
  show (cfg0.win 4).cut (grid0.coords t) ((dat0 V c).after 4 t) = _
  rw [after0_4]
  unfold out0_4
  rw [View.canon_unit_zero zeros3]
  simp only [View.ld_unit_zero (S := S1x512x256) zeros3, View.ld_unit_zero (S := S256) zeros1, View.ld_unit_zero (S := S16x256) zeros2]
  funext j
  obtain ⟨u, l, ch, rfl⟩ : ∃ (u : Fin 1) (l : Fin 512) (ch : Fin 16), j = ix3 u l ch := ⟨j 0, j 1, j 2, eq_ix3 j⟩
  obtain rfl : u = 0 := Subsingleton.elim _ _
  rw [View.read_apply, outPlace0]
  refine (lnPayload_apply (iblk0 V c 0 t) (iblk0 V c 1 t) (iblk0 V c 2 t) (iblk0 V c 3 t) l ch).trans ?_
  unfold Cert.Spec.lnProj
  simp only [inBlock0, scaleBlock0, shiftBlock0, weightBlock0]
  rfl

/-- Every entry (b, l, ch) of the output array lies in point b's block. -/
theorem covered0 (i : S4x512x16.Idx) :
    ∃ t : Fin cfg0.N, (cfg0.win 4).flush t = true ∧ i ∈ ((cfg0.win 4).blk t).view.set := by
  have hN : cfg0.N = 4 := N_0
  have hi0 : (i 0).val < 4 := (i 0).isLt
  have hi1 : (i 1).val < 512 := (i 1).isLt
  have hi2 : (i 2).val < 16 := (i 2).isLt
  let t : Fin cfg0.N := ⟨(i 0).val, by omega⟩
  obtain ⟨-, -, -, -, -, -, -, e0, e1, e2⟩ := blockIdx0 t
  refine ⟨t, flush0_4 t, ?_⟩
  show i ∈ ((View.whole main_v0).slice (win0_4.rect t)).set
  rw [View.set_slice_whole, Rect.mem_set_unit]
  intro a
  have ht : t.val = (i 0).val := rfl
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 16 ≤ (i 2).val ∧ (i 2).val < win0_4.index t (2 : Fin 3) * 16 + 16; omega

/-- The output array after the region: the projected rows of the entry arrays. -/
theorem final0 (c : Dev nD) :
    (dat0 V c).arrAt 4 cfg0.N = Cert.Spec.lnProj (V c main_arg0) (V c main_arg2) (V c main_arg3) (V c main_arg6) :=
  (dat0 V c).arrAt_eq_of_cover 4 _ (fun t _ => written0 V c t) covered0

end Cert.KernelIdeal.Hand

end
-- ==== Proof.LnBody1.lean ====
/-
  The second LayerNorm-and-projection region runs the same function body as the first, so its stored value, read at
  an entry, is the same projection of the normalised row.
-/
import proofs.«107976_j8899172237442_1_alg».proof.Proof.LnBody

noncomputable section

open Idealize.ShloMosaic Idealize.ShloMosaic.TcCoe Idealize.ShloMosaic.ValueIdx

namespace Cert.KernelIdeal.Hand

open Cert.KernelIdeal Cert.KernelIdeal.Gen

/-- Entry (0, l, c) of the second region's stored value is the projection, onto channel c, of the normalised row l. -/
theorem lnPayload1_apply (x0 : Vec Ideal S1x512x256 .f32) (x1 x2 : Vec Ideal S256 .f32) (x3 : Vec Ideal S16x256 .f32)
    (l : Fin 512) (c : Fin 16) :
    k1_pay1 (F := Ideal) x0 x1 x2 x3 (ix3 0 l c)
      = Cert.Spec.proj (fun k => x0 (ix3 0 l k)) (fun k => x1 (ix1 k)) (fun k => x2 (ix1 k)) (fun c' k => x3 (ix2 c' k)) c :=
  (congrFun (lnPayload1_eq x0 x1 x2 x3) (ix3 0 l c)).trans (lnPayload_apply x0 x1 x2 x3 l c)

end Cert.KernelIdeal.Hand

end
-- ==== Proof.Region1.lean ====
/-
  The second LayerNorm-and-projection region, from blocks to the whole array. Its grid has 4 points; point t reads
  rows (t, ·, ·) of the [4, 512, 256] input (a [1, 512, 256] block), the whole scale, shift and weight arrays, and writes
  back rows (t, ·, ·) of the [4, 512, 16] output. Each written entry depends on one input row only, so what point t
  writes is block t of ONE whole-array function of the entry arrays; the 4 blocks tile the output, so the output array
  ends holding that function. The entry arrays are a parameter: the same statement serves wherever the region runs.
-/
import proofs.«107976_j8899172237442_1_alg».proof.Proof.Gen.KernelIdeal.Frame
import proofs.«107976_j8899172237442_1_alg».proof.Proof.LnBody1
import proofs.«107976_j8899172237442_1_alg».proof.Proof.Zeros
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- A grid point of the region as a batch number. -/
def batch1 (t : Fin cfg1.N) : Fin 4 := ⟨t.val, by have := t.isLt; have h : cfg1.N = 4 := N_1; omega⟩

/-- The block index of every window at every point: the input and output blocks move with the point along the
    batch axis; the scale, shift and weight windows stay at block 0. -/
theorem blockIdx1 : ∀ t : Fin cfg1.N,
    win1_0.index t (0 : Fin 3) = t.val ∧ win1_0.index t (1 : Fin 3) = 0 ∧ win1_0.index t (2 : Fin 3) = 0
    ∧ win1_1.index t (0 : Fin 1) = 0 ∧ win1_2.index t (0 : Fin 1) = 0
    ∧ win1_3.index t (0 : Fin 2) = 0 ∧ win1_3.index t (1 : Fin 2) = 0
    ∧ win1_4.index t (0 : Fin 3) = t.val ∧ win1_4.index t (1 : Fin 3) = 0 ∧ win1_4.index t (2 : Fin 3) = 0 :=
  (by decide +kernel : ∀ t : Fin grid1.N, _)

/-- Row l of the input block at point t is row (t, l) of the input array. -/
theorem inBlock1 (c : Dev nD) (t : Fin cfg1.N) (l : Fin 512) (k : Fin 256) :
    (iblk1 V c 0 t : Vec Ideal S1x512x256 .f32) (ix3 (0 : Fin 1) l k)
      = (V c main_arg1 : S4x512x256.Idx → EReal) (ix3 (batch1 t) l k) := by
  obtain ⟨e0, e1, e2, -⟩ := blockIdx1 t
  unfold iblk1
  rw [View.read_apply]
  show V c main_arg1 _ = V c main_arg1 _
  congr 1
  funext a
  apply Fin.ext
  match a with
  | ⟨0, _⟩ => show win1_0.index t (0 : Fin 3) * 1 + 1 * 0 = t.val; omega
  | ⟨1, _⟩ => show win1_0.index t (1 : Fin 3) * 512 + 1 * l.val = l.val; omega
  | ⟨2, _⟩ => show win1_0.index t (2 : Fin 3) * 256 + 1 * k.val = k.val; omega

/-- The scale window's block is the whole scale array. -/
theorem scaleBlock1 (c : Dev nD) (t : Fin cfg1.N) (k : Fin 256) :
    (iblk1 V c 1 t : Vec Ideal S256 .f32) (ix1 k) = (V c main_arg4 : S256.Idx → EReal) (ix1 k) := by
  obtain ⟨-, -, -, e, -⟩ := blockIdx1 t
  unfold iblk1
  rw [View.read_apply]
  show V c main_arg4 _ = V c main_arg4 _
  congr 1
  funext a
  apply Fin.ext
  match a with
  | ⟨0, _⟩ => show win1_1.index t (0 : Fin 1) * 256 + 1 * k.val = k.val; omega

/-- The shift window's block is the whole shift array. -/
theorem shiftBlock1 (c : Dev nD) (t : Fin cfg1.N) (k : Fin 256) :
    (iblk1 V c 2 t : Vec Ideal S256 .f32) (ix1 k) = (V c main_arg5 : S256.Idx → EReal) (ix1 k) := by
  obtain ⟨-, -, -, -, e, -⟩ := blockIdx1 t
  unfold iblk1
  rw [View.read_apply]
  show V c main_arg5 _ = V c main_arg5 _
  congr 1
  funext a
  apply Fin.ext
  match a with
  | ⟨0, _⟩ => show win1_2.index t (0 : Fin 1) * 256 + 1 * k.val = k.val; omega

/-- The weight window's block is the whole weight array. -/
theorem weightBlock1 (c : Dev nD) (t : Fin cfg1.N) (ch : Fin 16) (k : Fin 256) :
    (iblk1 V c 3 t : Vec Ideal S16x256 .f32) (ix2 ch k) = (V c main_arg7 : S16x256.Idx → EReal) (ix2 ch k) := by
  obtain ⟨-, -, -, -, -, e0, e1, -⟩ := blockIdx1 t
  unfold iblk1
  rw [View.read_apply]
  show V c main_arg7 _ = V c main_arg7 _
  congr 1
  funext a
  apply Fin.ext
  match a with
  | ⟨0, _⟩ => show win1_3.index t (0 : Fin 2) * 16 + 1 * ch.val = ch.val; omega
  | ⟨1, _⟩ => show win1_3.index t (1 : Fin 2) * 256 + 1 * k.val = k.val; omega

/-- Entry (0, l, ch) of the output block at point t sits at (t, l, ch) in the output array. -/
theorem outPlace1 (t : Fin cfg1.N) (l : Fin 512) (ch : Fin 16) :
    ((cfg1.win 4).blk t).view.emb (ix3 (0 : Fin 1) l ch) = (ix3 (batch1 t) l ch : S4x512x16.Idx) := by
  obtain ⟨-, -, -, -, -, -, -, e0, e1, e2⟩ := blockIdx1 t
  funext a
  apply Fin.ext
  match a with
  | ⟨0, _⟩ => show win1_4.index t (0 : Fin 3) * 1 + 1 * 0 = t.val; omega
  | ⟨1, _⟩ => show win1_4.index t (1 : Fin 3) * 512 + 1 * l.val = l.val; omega
  | ⟨2, _⟩ => show win1_4.index t (2 : Fin 3) * 16 + 1 * ch.val = ch.val; omega

/-- What point t writes back is block t of the projected rows of the entry arrays. -/
theorem written1 (c : Dev nD) (t : Fin cfg1.N) :
    (dat1 V c).flushed 4 t = ((cfg1.win 4).blk t).view.read (Elt Ideal)
      (Cert.Spec.lnProj (V c main_arg1) (V c main_arg4) (V c main_arg5) (V c main_arg7)) := by
  show (cfg1.win 4).cut (grid1.coords t) ((dat1 V c).after 4 t) = _
  rw [after1_4]
  unfold out1_4
  rw [View.canon_unit_zero zeros3]
  simp only [View.ld_unit_zero (S := S1x512x256) zeros3, View.ld_unit_zero (S := S256) zeros1, View.ld_unit_zero (S := S16x256) zeros2]
  funext j
  obtain ⟨u, l, ch, rfl⟩ : ∃ (u : Fin 1) (l : Fin 512) (ch : Fin 16), j = ix3 u l ch := ⟨j 0, j 1, j 2, eq_ix3 j⟩
  obtain rfl : u = 0 := Subsingleton.elim _ _
  rw [View.read_apply, outPlace1]
  refine (lnPayload1_apply (iblk1 V c 0 t) (iblk1 V c 1 t) (iblk1 V c 2 t) (iblk1 V c 3 t) l ch).trans ?_
  unfold Cert.Spec.lnProj
  simp only [inBlock1, scaleBlock1, shiftBlock1, weightBlock1]
  rfl

/-- Every entry (b, l, ch) of the output array lies in point b's block. -/
theorem covered1 (i : S4x512x16.Idx) :
    ∃ t : Fin cfg1.N, (cfg1.win 4).flush t = true ∧ i ∈ ((cfg1.win 4).blk t).view.set := by
  have hN : cfg1.N = 4 := N_1
  have hi0 : (i 0).val < 4 := (i 0).isLt
  have hi1 : (i 1).val < 512 := (i 1).isLt
  have hi2 : (i 2).val < 16 := (i 2).isLt
  let t : Fin cfg1.N := ⟨(i 0).val, by omega⟩
  obtain ⟨-, -, -, -, -, -, -, e0, e1, e2⟩ := blockIdx1 t
  refine ⟨t, flush1_4 t, ?_⟩
  show i ∈ ((View.whole main_v1).slice (win1_4.rect t)).set
  rw [View.set_slice_whole, Rect.mem_set_unit]
  intro a
  have ht : t.val = (i 0).val := rfl
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 16 ≤ (i 2).val ∧ (i 2).val < win1_4.index t (2 : Fin 3) * 16 + 16; omega

/-- The output array after the region: the projected rows of the entry arrays. -/
theorem final1 (c : Dev nD) :
    (dat1 V c).arrAt 4 cfg1.N = Cert.Spec.lnProj (V c main_arg1) (V c main_arg4) (V c main_arg5) (V c main_arg7) :=
  (dat1 V c).arrAt_eq_of_cover 4 _ (fun t _ => written1 V c t) covered1

end Cert.KernelIdeal.Hand

end
-- ==== Proof.OuterBody.lean ====
/-
  The outer-product body, read at one entry of its output block. The block it stores is [1, 512, 32, 32]; its entry
  (0, l, p, o) is the sum over the 16 channels of hl[l, c] · hp[p, c], times the word of 1/16, times wf[o], plus bf[o].
-/
import proofs.«107976_j8899172237442_1_alg».proof.Proof.Spec
import proofs.«107976_j8899172237442_1_alg».proof.Proof.Consts
import proofs.«107976_j8899172237442_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.KernelIdeal.Hand

open Cert.KernelIdeal Cert.KernelIdeal.Gen

/-! ## Layout operations the body meets, read at an index written by coordinates -/

section Layout
variable {α : Type}

/-- An `[a, b]` array cast to `[a, b, 1]` reads, at `(i, j, u)`, the operand at `(i, j)`: both have row-major position
`i · b + j`, the unit coordinate adding nothing. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a]` array cast to `[1, 1, a]` reads, at `(u, v, i)`, the operand at `i`, whatever the unit coordinates. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, 1, c]` array broadcast to `[a, b, c]` reads, at `(i, j, k)`, the operand's one row at `k`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Layout

/-! ## The body's matrix product at an index -/

/-- On the left operand's row axis the product's operand index carries the output's row. -/
theorem lhs_outer_0 (i : S512x32.Idx) (q : dot_S512x16_S16x32_S512x32_1_0_0_1_n_n.contr.Idx) :
    (dot_S512x16_S16x32_S512x32_1_0_0_1_n_n.lhsIdx i q 0).val = (i 0).val := by
  unfold DotDims.lhsIdx
  rw [dif_neg (show ¬(0 : Fin S512x16.rank) ∈ dot_S512x16_S16x32_S512x32_1_0_0_1_n_n.lhsBatch by decide), dif_pos (show (0 : Fin S512x16.rank) ∈ dot_S512x16_S16x32_S512x32_1_0_0_1_n_n.lhsNonContracting by decide)]
  rfl
/-- On the left operand's contracted axis it carries the contraction coordinate. -/
theorem lhs_outer_1 (i : S512x32.Idx) (q : dot_S512x16_S16x32_S512x32_1_0_0_1_n_n.contr.Idx) :
    (dot_S512x16_S16x32_S512x32_1_0_0_1_n_n.lhsIdx i q 1).val = (q ⟨0, by decide⟩).val :=
  dot_S512x16_S16x32_S512x32_1_0_0_1_n_n.lhsIdx_val_of_single rfl i q
/-- On the right operand's contracted axis it carries the contraction coordinate. -/
theorem rhs_outer_0 (i : S512x32.Idx) (q : dot_S512x16_S16x32_S512x32_1_0_0_1_n_n.contr.Idx) :
    (dot_S512x16_S16x32_S512x32_1_0_0_1_n_n.rhsIdx i q 0).val = (q ⟨0, by decide⟩).val :=
  dot_S512x16_S16x32_S512x32_1_0_0_1_n_n.rhsIdx_val_of_single rfl i q
/-- On the right operand's column axis it carries the output's column. -/
theorem rhs_outer_1 (i : S512x32.Idx) (q : dot_S512x16_S16x32_S512x32_1_0_0_1_n_n.contr.Idx) :
    (dot_S512x16_S16x32_S512x32_1_0_0_1_n_n.rhsIdx i q 1).val = (i 1).val := by
  unfold DotDims.rhsIdx
  rw [dif_neg (show ¬(1 : Fin S16x32.rank) ∈ dot_S512x16_S16x32_S512x32_1_0_0_1_n_n.rhsBatch by decide), dif_pos (show (1 : Fin S16x32.rank) ∈ dot_S512x16_S16x32_S512x32_1_0_0_1_n_n.rhsNonContracting by decide)]
  rfl

/-- The [512,16] × [16,32] product into a zero accumulator, at `(l, p)`: the sum over the 16 contracted positions of
the left operand at `(l, c)` times the right operand at `(c, p)`. The sum over the contraction shape's indices is
re-indexed to `Fin 16` along the one-axis bijection. -/
theorem matmul_outer_apply (a : FVec Ideal S512x16 .bf16) (b : FVec Ideal S16x32 .bf16) (l : Fin 512) (p : Fin 32) :
    matmul (F := Ideal) dot_S512x16_S16x32_S512x32_1_0_0_1_n_n none a b (constant (F := Ideal) S512x32 .f32 0x00000000#32) (ix2 l p)
      = ∑ c : Fin 16, a (ix2 l c) * b (ix2 c p) := by
  simp only [matmul]
  rw [Ideal.matmul_constant_zero_apply, ← Equiv.sum_comp (ValueIdx.contrEquiv1 dot_S512x16_S16x32_S512x32_1_0_0_1_n_n 16 rfl rfl).symm]
  refine Finset.sum_congr rfl fun k _ => ?_
  have hk := ValueIdx.contrEquiv1_symm_val dot_S512x16_S16x32_S512x32_1_0_0_1_n_n 16 rfl rfl k
  have el : dot_S512x16_S16x32_S512x32_1_0_0_1_n_n.lhsIdx (ix2 l p) ((ValueIdx.contrEquiv1 dot_S512x16_S16x32_S512x32_1_0_0_1_n_n 16 rfl rfl).symm k) = ix2 l k := funext fun a => Fin.ext (by
    match a with
    | ⟨0, _⟩ => exact lhs_outer_0 _ _
    | ⟨1, _⟩ => exact (lhs_outer_1 _ _).trans hk)
  have er : dot_S512x16_S16x32_S512x32_1_0_0_1_n_n.rhsIdx (ix2 l p) ((ValueIdx.contrEquiv1 dot_S512x16_S16x32_S512x32_1_0_0_1_n_n 16 rfl rfl).symm k) = ix2 k p := funext fun a => Fin.ext (by
    match a with
    | ⟨0, _⟩ => exact (rhs_outer_0 _ _).trans hk
    | ⟨1, _⟩ => exact rhs_outer_1 _ _)
  rw [el, er]

/-! ## The stored value at an entry -/

/-- Entry (0, l, p, o) of the stored value is the scaled pair sum of rows l and p through output channel o's affine map. -/
theorem outerPayload_apply (x0 : Vec Ideal S1x512x16 .f32) (x1 : Vec Ideal S1x32x16 .f32) (x2 x3 : Vec Ideal S32 .f32)
    (l : Fin 512) (p : Fin 32) (o : Fin 32) :
    k2_pay1 (F := Ideal) x0 x1 x2 x3 (ix4 0 l p o)
      = Cert.Spec.pair (fun c => x0 (ix3 0 l c)) (fun c => x1 (ix3 0 p c)) (x2 (ix1 o)) (x3 (ix1 o)) := by
  unfold k2_pay1 Cert.Spec.pair
  -- the stored [1, 512, 32, 32] value at (0, l, p, o) is the [512, 32, 32] value at (l, p, o)
  refine (shapeCast_abc_1abc_apply _ _ (0 : Fin 1) l p o).trans ?_
  -- which is a sum of two terms: the product term and the broadcast bias
  refine (addf_apply _ _ _).trans ?_
  refine congrArg₂ (· + ·) ?_ ?_
  · -- the product term: the scaled sum, broadcast along the last axis, times the broadcast weight
    refine (mulf_apply _ _ _).trans ?_
    refine congrArg₂ (· * ·) ?_ ?_
    · -- the scaled sum at (l, p): read through the broadcast and the trailing-unit cast
      refine (broadcastTo_ab1_abc_apply _ _ l p o).trans ?_
      refine (shapeCast_ab_ab1_apply _ _ l p (0 : Fin 1)).trans ?_
      refine (mulf_apply _ _ _).trans ?_
      refine congrArg₂ (· * ·) ?_ (Ideal.ofBits_def _)
      -- the matrix product at (l, p) is the sum over the 16 channels
      refine (matmul_outer_apply _ _ l p).trans ?_
      refine Finset.sum_congr rfl fun c _ => ?_
      refine congrArg₂ (· * ·) ?_ ?_
      · -- the left operand at (l, c): the format change is the identity, the cast drops the unit axis
        exact shapeCast_1ab_ab_apply _ _ l c
      · -- the right operand at (c, p): the transpose reads (p, c), then as on the left
        refine (transpose_ix2_apply _ _ c p).trans ?_
        exact shapeCast_1ab_ab_apply _ _ p c
    · -- the weight at o: read through the broadcast, the cast to [1, 1, 32] and the identity cast
      refine (broadcastTo_11c_abc_apply _ _ l p o).trans ?_
      refine (shapeCast_a_11a_apply _ _ (0 : Fin 1) (0 : Fin 1) o).trans ?_
      exact congrFun (shapeCast_self _ _) _
  · -- the bias at o: read through the broadcast and the cast to [1, 1, 32]
    refine (broadcastTo_11c_abc_apply _ _ l p o).trans ?_
    exact shapeCast_a_11a_apply _ _ (0 : Fin 1) (0 : Fin 1) o

end Cert.KernelIdeal.Hand

end
-- ==== Proof.Region2.lean ====
/-
  The outer-product region, from blocks to the whole array. Its grid is 4 × 16; point t = 16·b + p reads rows (b, ·, ·)
  of the first projected array (a [1, 512, 16] block), rows (b, 32p … 32p + 31, ·) of the second (a [1, 32, 16] block), the
  two whole vectors of the final affine map, and writes back the [1, 512, 32, 32] block at (b, ·, 32p …, ·) of the
  [4, 512, 512, 32] output. Entry (b, l, 32p + q, o) depends on row (b, l) of the first array and row (b, 32p + q) of the
  second only, so what point t writes is block t of ONE whole-array function of the entry arrays; the 64 blocks tile
  the output, so the output array ends holding that function. The entry arrays are a parameter.
-/
import proofs.«107976_j8899172237442_1_alg».proof.Proof.Gen.KernelIdeal.Frame
import proofs.«107976_j8899172237442_1_alg».proof.Proof.OuterBody
import proofs.«107976_j8899172237442_1_alg».proof.Proof.Zeros
import Idealize.ShloMosaic.Lib.ValueIdx
import Idealize.ShloMosaic.Lib.Pipeline.Value
import Idealize.ShloMosaic.Lib.Tactic

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-- The batch number of a grid point. -/
def batch2 (t : Fin cfg2.N) : Fin 4 := ⟨t.val / 16, by have := t.isLt; have h : cfg2.N = 64 := N_2; omega⟩

/-- Row q of the point's block of the second projected array, as a row of the array: 32·(t mod 16) + q. -/
def row2 (t : Fin cfg2.N) (q : Fin 32) : Fin 512 := ⟨(t.val % 16) * 32 + q.val, by have := q.isLt; omega⟩

/-- The block index of every window at every point. -/
theorem blockIdx2 : ∀ t : Fin cfg2.N,
    win2_0.index t (0 : Fin 3) = t.val / 16 ∧ win2_0.index t (1 : Fin 3) = 0 ∧ win2_0.index t (2 : Fin 3) = 0
    ∧ win2_1.index t (0 : Fin 3) = t.val / 16 ∧ win2_1.index t (1 : Fin 3) = t.val % 16 ∧ win2_1.index t (2 : Fin 3) = 0
    ∧ win2_2.index t (0 : Fin 1) = 0 ∧ win2_3.index t (0 : Fin 1) = 0
    ∧ win2_4.index t (0 : Fin 4) = t.val / 16 ∧ win2_4.index t (1 : Fin 4) = 0
    ∧ win2_4.index t (2 : Fin 4) = t.val % 16 ∧ win2_4.index t (3 : Fin 4) = 0 :=
  (by decide +kernel : ∀ t : Fin grid2.N, _)

/-- Row l of the first window's block at point t is row (b, l) of the first projected array. -/
theorem leftBlock2 (c : Dev nD) (t : Fin cfg2.N) (l : Fin 512) (ch : Fin 16) :
    (iblk2 V c 0 t : Vec Ideal S1x512x16 .f32) (ix3 (0 : Fin 1) l ch)
      = (V c main_v0 : S4x512x16.Idx → EReal) (ix3 (batch2 t) l ch) := by
  obtain ⟨e0, e1, e2, -⟩ := blockIdx2 t
  unfold iblk2
  rw [View.read_apply]
  show V c main_v0 _ = V c main_v0 _
  congr 1
  funext a
  apply Fin.ext
  match a with
  | ⟨0, _⟩ => show win2_0.index t (0 : Fin 3) * 1 + 1 * 0 = t.val / 16; omega
  | ⟨1, _⟩ => show win2_0.index t (1 : Fin 3) * 512 + 1 * l.val = l.val; omega
  | ⟨2, _⟩ => show win2_0.index t (2 : Fin 3) * 16 + 1 * ch.val = ch.val; omega

/-- Row q of the second window's block at point t is row (b, 32p + q) of the second projected array. -/
theorem rightBlock2 (c : Dev nD) (t : Fin cfg2.N) (q : Fin 32) (ch : Fin 16) :
    (iblk2 V c 1 t : Vec Ideal S1x32x16 .f32) (ix3 (0 : Fin 1) q ch)
      = (V c main_v1 : S4x512x16.Idx → EReal) (ix3 (batch2 t) (row2 t q) ch) := by
  obtain ⟨-, -, -, e0, e1, e2, -⟩ := blockIdx2 t
  unfold iblk2
  rw [View.read_apply]
  show V c main_v1 _ = V c main_v1 _
  congr 1
  funext a
  apply Fin.ext
  match a with
  | ⟨0, _⟩ => show win2_1.index t (0 : Fin 3) * 1 + 1 * 0 = t.val / 16; omega
  | ⟨1, _⟩ => show win2_1.index t (1 : Fin 3) * 32 + 1 * q.val = (t.val % 16) * 32 + q.val; omega
  | ⟨2, _⟩ => show win2_1.index t (2 : Fin 3) * 16 + 1 * ch.val = ch.val; omega

/-- The third window's block is the whole vector of output weights. -/
theorem weightBlock2 (c : Dev nD) (t : Fin cfg2.N) (o : Fin 32) :
    (iblk2 V c 2 t : Vec Ideal S32 .f32) (ix1 o) = (V c main_v2 : S32.Idx → EReal) (ix1 o) := by
  obtain ⟨-, -, -, -, -, -, e, -⟩ := blockIdx2 t
  unfold iblk2
  rw [View.read_apply]
  show V c main_v2 _ = V c main_v2 _
  congr 1
  funext a
  apply Fin.ext
  match a with
  | ⟨0, _⟩ => show win2_2.index t (0 : Fin 1) * 32 + 1 * o.val = o.val; omega

/-- The fourth window's block is the whole vector of output biases. -/
theorem biasBlock2 (c : Dev nD) (t : Fin cfg2.N) (o : Fin 32) :
    (iblk2 V c 3 t : Vec Ideal S32 .f32) (ix1 o) = (V c main_arg9 : S32.Idx → EReal) (ix1 o) := by
  obtain ⟨-, -, -, -, -, -, -, e, -⟩ := blockIdx2 t
  unfold iblk2
  rw [View.read_apply]
  show V c main_arg9 _ = V c main_arg9 _
  congr 1
  funext a
  apply Fin.ext
  match a with
  | ⟨0, _⟩ => show win2_3.index t (0 : Fin 1) * 32 + 1 * o.val = o.val; omega

/-- Entry (0, l, q, o) of the output block at point t sits at (b, l, 32p + q, o) in the output array. -/
theorem outPlace2 (t : Fin cfg2.N) (l : Fin 512) (q : Fin 32) (o : Fin 32) :
    ((cfg2.win 4).blk t).view.emb (ix4 (0 : Fin 1) l q o) = (ix4 (batch2 t) l (row2 t q) o : S4x512x512x32.Idx) := by
  obtain ⟨-, -, -, -, -, -, -, -, e0, e1, e2, e3⟩ := blockIdx2 t
  funext a
  apply Fin.ext
  match a with
  | ⟨0, _⟩ => show win2_4.index t (0 : Fin 4) * 1 + 1 * 0 = t.val / 16; omega
  | ⟨1, _⟩ => show win2_4.index t (1 : Fin 4) * 512 + 1 * l.val = l.val; omega
  | ⟨2, _⟩ => show win2_4.index t (2 : Fin 4) * 32 + 1 * q.val = (t.val % 16) * 32 + q.val; omega
  | ⟨3, _⟩ => show win2_4.index t (3 : Fin 4) * 32 + 1 * o.val = o.val; omega

/-- What point t writes back is block t of the scaled outer product of the entry arrays through the affine map. -/
theorem written2 (c : Dev nD) (t : Fin cfg2.N) :
    (dat2 V c).flushed 4 t = ((cfg2.win 4).blk t).view.read (Elt Ideal)
      (Cert.Spec.outerLin (V c main_v0) (V c main_v1) (V c main_v2) (V c main_arg9)) := by
  show (cfg2.win 4).cut (grid2.coords t) ((dat2 V c).after 4 t) = _
  rw [after2_4]
  unfold out2_4
  rw [View.canon_unit_zero zeros4]
  simp only [View.ld_unit_zero (S := S1x512x16) zeros3, View.ld_unit_zero (S := S1x32x16) zeros3, View.ld_unit_zero (S := S32) zeros1]
  funext j
  obtain ⟨u, l, q, o, rfl⟩ : ∃ (u : Fin 1) (l : Fin 512) (q : Fin 32) (o : Fin 32), j = ix4 u l q o :=
    ⟨j 0, j 1, j 2, j 3, eq_ix4 j⟩
  obtain rfl : u = 0 := Subsingleton.elim _ _
  rw [View.read_apply, outPlace2]
  refine (outerPayload_apply (iblk2 V c 0 t) (iblk2 V c 1 t) (iblk2 V c 2 t) (iblk2 V c 3 t) l q o).trans ?_
  unfold Cert.Spec.outerLin
  simp only [leftBlock2, rightBlock2, weightBlock2, biasBlock2]
  rfl

/-- Every entry (b, l, r, o) of the output array lies in the block of point 16·b + r / 32. -/
theorem covered2 (i : S4x512x512x32.Idx) :
    ∃ t : Fin cfg2.N, (cfg2.win 4).flush t = true ∧ i ∈ ((cfg2.win 4).blk t).view.set := by
  have hN : cfg2.N = 64 := N_2
  have hi0 : (i 0).val < 4 := (i 0).isLt
  have hi1 : (i 1).val < 512 := (i 1).isLt
  have hi2 : (i 2).val < 512 := (i 2).isLt
  have hi3 : (i 3).val < 32 := (i 3).isLt
  let t : Fin cfg2.N := ⟨(i 0).val * 16 + (i 2).val / 32, by omega⟩
  obtain ⟨-, -, -, -, -, -, -, -, e0, e1, e2, e3⟩ := blockIdx2 t
  refine ⟨t, flush2_4 t, ?_⟩
  show i ∈ ((View.whole main_v3).slice (win2_4.rect t)).set
  rw [View.set_slice_whole, Rect.mem_set_unit]
  intro a
  have ht : t.val = (i 0).val * 16 + (i 2).val / 32 := rfl
  match a with
  | ⟨0, _⟩ => show win2_4.index t (0 : Fin 4) * 1 ≤ (i 0).val ∧ (i 0).val < win2_4.index t (0 : Fin 4) * 1 + 1; omega
  | ⟨1, _⟩ => show win2_4.index t (1 : Fin 4) * 512 ≤ (i 1).val ∧ (i 1).val < win2_4.index t (1 : Fin 4) * 512 + 512; omega
  | ⟨2, _⟩ => show win2_4.index t (2 : Fin 4) * 32 ≤ (i 2).val ∧ (i 2).val < win2_4.index t (2 : Fin 4) * 32 + 32; omega
  | ⟨3, _⟩ => show win2_4.index t (3 : Fin 4) * 32 ≤ (i 3).val ∧ (i 3).val < win2_4.index t (3 : Fin 4) * 32 + 32; omega

/-- The output array after the region: the scaled outer product of the entry arrays through the affine map. -/
theorem final2 (c : Dev nD) :
    (dat2 V c).arrAt 4 cfg2.N = Cert.Spec.outerLin (V c main_v0) (V c main_v1) (V c main_v2) (V c main_arg9) :=
  (dat2 V c).arrAt_eq_of_cover 4 _ (fun t _ => written2 V c t) covered2

end Cert.KernelIdeal.Hand

end
-- ==== Proof.KernelValue.lean ====
/-
  The result array followed back through the run. After the last region the result array holds the scaled outer
  product, through the affine map, of what that region found in its four operand arrays. The first of them was written
  by the first LayerNorm region and touched by nothing after it; the second by the second LayerNorm region; the third
  is the reshape of the [32, 1] weight argument to [32], which reads entry (o, 0) at o; the fourth is the bias argument.
  Each LayerNorm region found its operands as launched, since nothing before it writes an argument. So the result
  array is the specification's function of the ten arguments.
-/
import proofs.«107976_j8899172237442_1_alg».proof.Proof.Gen.KernelIdeal.Frame
import proofs.«107976_j8899172237442_1_alg».proof.Proof.Region0
import proofs.«107976_j8899172237442_1_alg».proof.Proof.Region1
import proofs.«107976_j8899172237442_1_alg».proof.Proof.Region2
import Idealize.ShloMosaic.Lib.StableHlo.Run
import Idealize.ShloMosaic.Lib.ValueIdx
import Idealize.ShloMosaic.Lib.Pipeline.Value

set_option maxRecDepth 16384

noncomputable section

open Idealize.ShloMosaic Idealize.ShloMosaic.TcCoe Idealize.ShloMosaic.ValueIdx Idealize.SL.Sem

namespace Cert.KernelIdeal.Hand

open Cert.KernelIdeal Cert.KernelIdeal.Gen

variable (m : (ℓ : Loc nD τ sig) → Buf (Elt Ideal) ℓ) (ρ : Dev nD → PrngReg)

/-- What the last region finds in its first operand: the projected rows of the first input, from the launch memory. -/
theorem leftOperand (c : Dev nD) :
    V3 m ρ c main_v0 = Cert.Spec.lnProj (m ((c : Thread nD τ).loc main_arg0)) (m ((c : Thread nD τ).loc main_arg2))
      (m ((c : Thread nD τ).loc main_arg3)) (m ((c : Thread nD τ).loc main_arg6)) :=
  calc W3 m ρ c (Proc.devRef .tc main_v0)
    _ = W2 m ρ c (Proc.devRef .tc main_v0) := StableHlo.after_of_forall_not_mem (b := Proc.devRef .tc main_v0) _ _ (List.forall_iff_forall_mem.mp (by
        simp only [hostOps2, List.Forall, StableHlo.reshape_writes, Finset.mem_singleton]
        exact StableHlo.devRef_ne_of_ne (by decide)))
    _ = W1 m ρ c (Proc.devRef .tc main_v0) := W2_of_ne m ρ c main_v0 (by decide)
    _ = (dat0 (V0 m ρ) c).arrAt 4 cfg0.N := W1_arr m ρ c 4
    _ = _ := final0 (V0 m ρ) c

/-- An argument array the first region does not stage is, at the first boundary, as launched. -/
theorem atFirstBoundary (c : Dev nD) (b : Ref sig .tc) (hb : ∀ w, Pipeline.arrRef spec0 w ≠ b) :
    V1 m ρ c b = m ((c : Thread nD τ).loc b) := W1_of_ne m ρ c b hb

/-- What the last region finds in its second operand: the projected rows of the second input, from the launch memory. -/
theorem rightOperand (c : Dev nD) :
    V3 m ρ c main_v1 = Cert.Spec.lnProj (m ((c : Thread nD τ).loc main_arg1)) (m ((c : Thread nD τ).loc main_arg4))
      (m ((c : Thread nD τ).loc main_arg5)) (m ((c : Thread nD τ).loc main_arg7)) :=
  calc W3 m ρ c (Proc.devRef .tc main_v1)
    _ = W2 m ρ c (Proc.devRef .tc main_v1) := StableHlo.after_of_forall_not_mem (b := Proc.devRef .tc main_v1) _ _ (List.forall_iff_forall_mem.mp (by
        simp only [hostOps2, List.Forall, StableHlo.reshape_writes, Finset.mem_singleton]
        exact StableHlo.devRef_ne_of_ne (by decide)))
    _ = (dat1 (V1 m ρ) c).arrAt 4 cfg1.N := W2_arr m ρ c 4
    _ = Cert.Spec.lnProj (V1 m ρ c main_arg1) (V1 m ρ c main_arg4) (V1 m ρ c main_arg5) (V1 m ρ c main_arg7) := final1 (V1 m ρ) c
    _ = _ := by
      rw [atFirstBoundary m ρ c main_arg1 (by decide), atFirstBoundary m ρ c main_arg4 (by decide),
        atFirstBoundary m ρ c main_arg5 (by decide), atFirstBoundary m ρ c main_arg7 (by decide)]

/-- An argument array neither LayerNorm region stages is, at the second boundary, as launched. -/
theorem atSecondBoundary (c : Dev nD) (b : Ref sig .tc) (h1 : ∀ w, Pipeline.arrRef spec1 w ≠ b)
    (h0 : ∀ w, Pipeline.arrRef spec0 w ≠ b) : W2 m ρ c (Proc.devRef .tc b) = m ((c : Thread nD τ).loc b) :=
  (W2_of_ne m ρ c b h1).trans (W1_of_ne m ρ c b h0)

/-- What the last region finds in its fourth operand: the bias argument. -/
theorem biasOperand (c : Dev nD) : V3 m ρ c main_arg9 = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
        simp only [hostOps2, List.Forall, StableHlo.reshape_writes, Finset.mem_singleton]
        exact StableHlo.devRef_ne_of_ne (by decide)))
    _ = _ := atSecondBoundary m ρ c main_arg9 (by decide) (by decide)

/-- What the last region finds in its third operand: column 0 of the [32, 1] weight argument. -/
theorem weightOperand (c : Dev nD) :
    V3 m ρ c main_v2 = fun o => (m ((c : Thread nD τ).loc main_arg8) : S32x1.Idx → EReal) (ix2 (o 0) 0) := by
  have h : W3 m ρ c (Proc.devRef .tc main_v2) = shapeCast S32 (W2 m ρ c (Proc.devRef .tc main_arg8)) shapeCasts_S32x1_S32 := by
    show StableHlo.after hostOps2 (W2 m ρ c) (Proc.devRef .tc main_v2) = _
    after_results
    rfl
  show W3 m ρ c (Proc.devRef .tc main_v2) = _
  rw [h, atSecondBoundary m ρ c main_arg8 (by decide) (by decide)]
  funext o
  exact shapeCast_apply _ shapeCasts_S32x1_S32 o (ix2 (o 0) 0)
    (by rewrite [Shape.rowMajor_val_two, Shape.rowMajor_val_one]; show (o 0).val * 1 + 0 = (o 0).val; omega)

/-- The result array at the last boundary is the specified function of the ten arguments. -/
theorem resultAtEnd (c : Dev nD) :
    W4 m ρ c (Proc.devRef .tc main_v3)
      = Cert.Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9)) :=
  calc W4 m ρ c (Proc.devRef .tc main_v3)
    _ = (dat2 (V3 m ρ) c).arrAt 4 cfg2.N := W4_arr m ρ c 4
    _ = Cert.Spec.outerLin (V3 m ρ c main_v0) (V3 m ρ c main_v1) (V3 m ρ c main_v2) (V3 m ρ c main_arg9) := final2 (V3 m ρ) c
    _ = _ := by
      rw [leftOperand m ρ c, rightOperand m ρ c, weightOperand m ρ c, biasOperand m ρ c]
      rfl

end Cert.KernelIdeal.Hand

end
-- ==== Proof.RefValue.lean ====
/-
  The reference program's result, stage by stage, is the specification. Its row sums start from the zero word, which
  denotes 0; its pair sums are divided by the word of 16, which on the extended reals is multiplication by the word
  of 1/16 at every argument.
-/
import proofs.«107976_j8899172237442_1_alg».proof.Proof.Spec
import proofs.«107976_j8899172237442_1_alg».proof.Proof.Consts
import proofs.«107976_j8899172237442_1_alg».proof.Proof.Gen.ReferenceIdeal.Read
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.ShloMosaic.ValueIdx

namespace Cert.ReferenceIdeal.Hand

open Cert.ReferenceIdeal Cert.ReferenceIdeal.Gen Cert.ReferenceIdeal.Read

/-- The mean stage at a row is the specified mean of that row: the row sum starts from the zero word, which denotes 0. -/
theorem mean_ref (x : (⟨S4x512x256, .f32⟩ : BufTy).Contents (Elt Ideal)) (b : Fin 4) (l : Fin 512) :
    val_main_v3 (F := Ideal) x (ix3 b l (0 : Fin 1)) = Cert.Spec.mean (fun k => x (ix3 b l k)) := by
  rw [val_main_v3_apply, val_main_v1_apply, val_main_v2_apply, val_main_cst_0_apply, val_main_v0_apply,
    val_main_cst_apply]
  simp only [Ideal.hostDivf_def, Ideal.ofBits_def, Ideal.ofBits_zero_f32, zero_add]
  unfold Cert.Spec.mean
  refine congrArg (Ideal.div · _) (Finset.sum_congr rfl fun k _ => congrArg x ?_)
  exact funext fun a => Fin.ext (by match a with | ⟨0, _⟩ => rfl | ⟨1, _⟩ => rfl | ⟨2, _⟩ => rfl)

/-- The variance stage at a row is the specified variance: the sum of squared deviations from the row's mean
    (the mean stage read through its broadcast), over the word of 256. -/
theorem var_ref (x : (⟨S4x512x256, .f32⟩ : BufTy).Contents (Elt Ideal)) (b : Fin 4) (l : Fin 512) :
    val_main_v10 (F := Ideal) x (ix3 b l (0 : Fin 1)) = Cert.Spec.var (fun k => x (ix3 b l k)) := by
  rw [val_main_v10_apply, val_main_v8_apply, val_main_v9_apply, val_main_cst_2_apply, val_main_v7_apply,
    val_main_cst_1_apply]
  simp only [Ideal.hostDivf_def, Ideal.ofBits_def, Ideal.ofBits_zero_f32, zero_add]
  unfold Cert.Spec.var
  refine congrArg (Ideal.div · _) (Finset.sum_congr rfl fun k _ => ?_)
  have h1 : idx_main_v7 (idx_main_v8 (ix3 b l (0 : Fin 1))) k = ix3 b l k :=
    funext fun a => Fin.ext (by match a with | ⟨0, _⟩ => rfl | ⟨1, _⟩ => rfl | ⟨2, _⟩ => rfl)
  have h2 : idx_main_v4 (ix3 b l k) = ix3 b l (0 : Fin 1) :=
    funext fun a => Fin.ext (by match a with | ⟨0, _⟩ => rfl | ⟨1, _⟩ => rfl | ⟨2, _⟩ => rfl)
  rw [h1, val_main_v6_apply, val_main_v5_apply, val_main_v4_apply, h2, mean_ref]
  simp only [Ideal.mulf_def, Ideal.subf_def]

/-- The normalised, scaled and shifted stage at an entry is the specified one: the deviation from the mean, times the
    reciprocal root of the variance plus the epsilon word, times the weight, plus the bias. -/
theorem normed_ref (x : (⟨S4x512x256, .f32⟩ : BufTy).Contents (Elt Ideal)) (w c : (⟨S256, .f32⟩ : BufTy).Contents (Elt Ideal))
    (b : Fin 4) (l : Fin 512) (k : Fin 256) :
    val_main_v23 (F := Ideal) x w c (ix3 b l k)
      = Cert.Spec.normed (fun k => x (ix3 b l k)) (fun k => w (ix1 k)) (fun k => c (ix1 k)) k := by
  have h11 : idx_main_v11 (ix3 b l k) = ix3 b l (0 : Fin 1) :=
    funext fun a => Fin.ext (by match a with | ⟨0, _⟩ => rfl | ⟨1, _⟩ => rfl | ⟨2, _⟩ => rfl)
  have h16 : idx_main_v16 (ix3 b l k) = ix3 b l (0 : Fin 1) :=
    funext fun a => Fin.ext (by match a with | ⟨0, _⟩ => rfl | ⟨1, _⟩ => rfl | ⟨2, _⟩ => rfl)
  have h18 : idx_main_v18 (idx_main_v19 (ix3 b l k)) = ix1 k :=
    funext fun a => Fin.ext (by match a with | ⟨0, _⟩ => rfl)
  have h21 : idx_main_v21 (idx_main_v22 (ix3 b l k)) = ix1 k :=
    funext fun a => Fin.ext (by match a with | ⟨0, _⟩ => rfl)
  rw [val_main_v23_apply, val_main_v20_apply, val_main_v17_apply, val_main_v12_apply, val_main_v11_apply, h11,
    mean_ref, val_main_v16_apply, h16, val_main_v15_apply, val_main_v14_apply, var_ref, val_main_v13_apply,
    val_main_cst_3_apply, val_main_v19_apply, val_main_v18_apply, h18, val_main_v22_apply, val_main_v21_apply, h21]
  simp only [Ideal.addf_def, Ideal.mulf_def, Ideal.subf_def, Ideal.hostUnary_rsqrt_def, Ideal.ofBits_def]
  rfl

/-- The projection stage at a channel of a row is the specified projection of the normalised row. -/
theorem proj_ref (x : (⟨S4x512x256, .f32⟩ : BufTy).Contents (Elt Ideal)) (w c : (⟨S256, .f32⟩ : BufTy).Contents (Elt Ideal))
    (W : (⟨S16x256, .f32⟩ : BufTy).Contents (Elt Ideal)) (b : Fin 4) (l : Fin 512) (ch : Fin 16) :
    val_main_v24 (F := Ideal) x w c W (ix3 b l ch) = Cert.Spec.lnProj x w c W (ix3 b l ch) := by
  rw [val_main_v24_apply]
  show _ = ∑ k : Fin 256, Cert.Spec.normed (fun k => x (ix3 b l k)) (fun k => w (ix1 k)) (fun k => c (ix1 k)) k
    * W (ix2 ch k)
  refine Finset.sum_congr rfl fun k _ => ?_
  have hl : lidx_main_v24 (ix3 b l ch) k = ix3 b l k :=
    funext fun a => Fin.ext (by match a with | ⟨0, _⟩ => rfl | ⟨1, _⟩ => rfl | ⟨2, _⟩ => rfl)
  have hr : ridx_main_v24 (ix3 b l ch) k = ix2 ch k :=
    funext fun a => Fin.ext (by match a with | ⟨0, _⟩ => rfl | ⟨1, _⟩ => rfl)
  rw [hl, hr, normed_ref]

/-- The second chain (stages 25 to 49) is the first chain's text at the other arguments: the same operations with
    the same words, so the two projection stages are one function. -/
theorem proj_ref' (x : (⟨S4x512x256, .f32⟩ : BufTy).Contents (Elt Ideal)) (w c : (⟨S256, .f32⟩ : BufTy).Contents (Elt Ideal))
    (W : (⟨S16x256, .f32⟩ : BufTy).Contents (Elt Ideal)) (b : Fin 4) (l : Fin 512) (ch : Fin 16) :
    val_main_v49 (F := Ideal) x w c W (ix3 b l ch) = Cert.Spec.lnProj x w c W (ix3 b l ch) :=
  proj_ref x w c W b l ch

/-- The pair-sum stage at (b, l, p) is the sum over the 16 channels of the two projected rows' products. -/
theorem pair_ref (x0 x1 : (⟨S4x512x256, .f32⟩ : BufTy).Contents (Elt Ideal)) (x2 x3 x4 x5 : (⟨S256, .f32⟩ : BufTy).Contents (Elt Ideal))
    (x6 x7 : (⟨S16x256, .f32⟩ : BufTy).Contents (Elt Ideal)) (b : Fin 4) (l p : Fin 512) :
    val_main_v50 (F := Ideal) x0 x1 x2 x3 x4 x5 x6 x7 (ix3 b l p)
      = ∑ ch : Fin 16, Cert.Spec.lnProj x0 x2 x3 x6 (ix3 b l ch) * Cert.Spec.lnProj x1 x4 x5 x7 (ix3 b p ch) := by
  rw [val_main_v50_apply]
  refine Finset.sum_congr rfl fun ch _ => ?_
  have hl : lidx_main_v50 (ix3 b l p) ch = ix3 b l ch :=
    funext fun a => Fin.ext (by match a with | ⟨0, _⟩ => rfl | ⟨1, _⟩ => rfl | ⟨2, _⟩ => rfl)
  have hr : ridx_main_v50 (ix3 b l p) ch = ix3 b p ch :=
    funext fun a => Fin.ext (by match a with | ⟨0, _⟩ => rfl | ⟨1, _⟩ => rfl | ⟨2, _⟩ => rfl)
  rw [hl, hr, proj_ref, proj_ref']

/-- The reference's last stage, as a function of the ten arguments, is the specified result. -/
theorem ref_eq (x0 x1 : (⟨S4x512x256, .f32⟩ : BufTy).Contents (Elt Ideal)) (x2 x3 x4 x5 : (⟨S256, .f32⟩ : BufTy).Contents (Elt Ideal))
    (x6 x7 : (⟨S16x256, .f32⟩ : BufTy).Contents (Elt Ideal)) (x8 : (⟨S32x1, .f32⟩ : BufTy).Contents (Elt Ideal))
    (x9 : (⟨S32, .f32⟩ : BufTy).Contents (Elt Ideal)) :
    val_main_v61 (F := Ideal) x0 x1 x2 x3 x4 x5 x6 x7 x8 x9 = Cert.Spec.result x0 x1 x2 x3 x4 x5 x6 x7 x8 x9 := by
  funext i
  obtain ⟨b, l, p, o, rfl⟩ : ∃ (b : Fin 4) (l : Fin 512) (p : Fin 512) (o : Fin 32), i = ix4 b l p o :=
    ⟨i 0, i 1, i 2, i 3, eq_ix4 i⟩
  have h53 : idx_main_v53 (idx_main_v56 (ix4 b l p o)) = ix3 b l p :=
    funext fun a => Fin.ext (by match a with | ⟨0, _⟩ => rfl | ⟨1, _⟩ => rfl | ⟨2, _⟩ => rfl)
  have h54 : idx_main_v54 (idx_main_v55 (idx_main_v57 (ix4 b l p o))) = ix2 o (0 : Fin 1) :=
    funext fun a => Fin.ext (by match a with | ⟨0, _⟩ => exact Nat.div_one _ | ⟨1, _⟩ => rfl)
  have h59 : idx_main_v59 (idx_main_v60 (ix4 b l p o)) = ix1 o :=
    funext fun a => Fin.ext (by match a with | ⟨0, _⟩ => rfl)
  rw [val_main_v61_apply, val_main_v58_apply, val_main_v56_apply, val_main_v53_apply, h53, val_main_v52_apply,
    pair_ref, val_main_v51_apply, val_main_cst_9_apply, val_main_v57_apply, val_main_v55_apply, val_main_v54_apply,
    h54, val_main_v60_apply, val_main_v59_apply, h59]
  simp only [Ideal.addf_def, Ideal.mulf_def, Ideal.hostDivf_def, Ideal.ofBits_def, Cert.Consts.div_sixteen]
  rfl

end Cert.ReferenceIdeal.Hand

end
-- ==== Proof.lean ====
/-
  The kernel computes, in three regions, the LayerNorm and 16-channel projection of every row of two [4, 512, 256]
  inputs, and then for every batch b the outer product over rows of the two projected arrays, scaled by 1/16 and sent
  through an affine map onto 32 output channels: result[b, l, p, o] = (Σ_c hl[b,l,c] · hp[b,p,c]) · (1/16) · W_f[o,0] + b_f[o].
  The reference computes the same with whole-array operations and divides the pair sums by 16.

  Read over the extended reals the two programs are the same function of the ten arguments. Every sum is a finite sum
  in a commutative monoid, so tiling and order do not matter; a narrowing of the float format is the identity; the
  kernel's matrix products into a zero accumulator and the reference's dot_generals are the same plain sums; the
  LayerNorm words (256, the epsilon) are the same words on both sides; and dividing by the word of 16 is multiplying by
  the word of 1/16 at every extended real, the infinities included (Proof/Consts.lean). No step uses distributivity or
  cancellation, so the finiteness of the inputs is not needed and the precondition is never opened.

  Kernel side: each region's output array is one whole-array function of the arrays it finds (Proof/Region0, Region1,
  Region2, over the body's value at an entry: Proof/LnBody, LnBody1, OuterBody); the run names the result array at the
  last boundary (Proof/KernelRun) and the boundaries are followed back to the launch memory (Proof/KernelValue).
  Reference side: the run's term, stage by stage, is the same function (Proof/RefValue). Both are Proof/Spec's `result`.
  The idealization rewrote nothing, so `preserves` is trivial.
-/
import proofs.«107976_j8899172237442_1_alg».proof.Defs
import proofs.«107976_j8899172237442_1_alg».proof.Proof.Gen.Kernel
import proofs.«107976_j8899172237442_1_alg».proof.Proof.Gen.Kernel.Skeleton
import proofs.«107976_j8899172237442_1_alg».proof.Proof.Gen.Kernel.Launch
import proofs.«107976_j8899172237442_1_alg».proof.Proof.Gen.Kernel.Points
import proofs.«107976_j8899172237442_1_alg».proof.Proof.Gen.Kernel.Frame
import proofs.«107976_j8899172237442_1_alg».proof.Proof.Gen.KernelIdeal
import proofs.«107976_j8899172237442_1_alg».proof.Proof.Gen.KernelIdeal.Skeleton
import proofs.«107976_j8899172237442_1_alg».proof.Proof.Gen.KernelIdeal.Launch
import proofs.«107976_j8899172237442_1_alg».proof.Proof.Gen.KernelIdeal.Points
import proofs.«107976_j8899172237442_1_alg».proof.Proof.Gen.KernelIdeal.Frame
import proofs.«107976_j8899172237442_1_alg».proof.Proof.Gen.ReferenceIdeal
import proofs.«107976_j8899172237442_1_alg».proof.Proof.Gen.Pre_finite_inputs
import proofs.«107976_j8899172237442_1_alg».proof.Proof.Gen.ReferenceIdeal.Run
import proofs.«107976_j8899172237442_1_alg».proof.Proof.Gen.ReferenceIdeal.Read
import proofs.«107976_j8899172237442_1_alg».proof.Proof.KernelRun
import proofs.«107976_j8899172237442_1_alg».proof.Proof.KernelValue
import proofs.«107976_j8899172237442_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at the specified function of
    the arguments. -/
theorem algebraic : Cert.algebraic_KernelIdeal_ReferenceIdeal := by
  intro m ρ m' ρ' _ hagree
  refine ⟨fun c => Cert.Spec.result
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Hand.resultAtEnd m ρ c), (h c).2⟩)
      (Cert.KernelIdeal.Hand.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v61_eq, Cert.ReferenceIdeal.Hand.ref_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
